-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v45_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S100000x64 : Shape := ⟨2, ![100000, 64]⟩
abbrev S1600000 : Shape := ⟨1, ![1600000]⟩
abbrev S162x128 : Shape := ⟨2, ![162, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1600000 : S_.BroadcastsInDim S1600000 (![] : Fin 0 → Fin S1600000.rank)
  reducesTo_S1600000_S_d0 : S1600000.ReducesTo [0] S_
  bcast_S_S162x128 : S_.BroadcastsInDim S162x128 (![] : Fin 0 → Fin S162x128.rank)
  reducesTo_S162x128_S_d0_1 : S162x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S162x128 1) : IVec S_ 1 :=
  let main_c_5 : IVec S_ 1 := constantI S_ 1 1#1
  let main_v17 : IVec S_ 1 := (fun x v => Host.reduce IntOp.andi x v reducesTo_S162x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x16 .f32) (main_arg1 : FVec F S100000x64 .f32) (main_arg2 : FVec F S1600000 .f32) (main_arg3 : IVec S1600000 32) (main_arg4 : IVec S1600000 32) (main_arg5 : FVec F S162x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S162x128 .f32 := Host.absf main_arg5
  let main_cst_4 : FVec F S_ .f32 := constant S_ .f32 0x7F800000#32
  let main_v15 : FVec F S162x128 .f32 := broadcastInDim S162x128 ![] bcast_S_S162x128 main_cst_4
  let main_v16 : IVec S162x128 1 := cmpf .olt main_v14 main_v15
  fn_part1 (F := F) main_arg6 main_arg7 main_arg8 main_arg9 main_arg10 main_v13 main_v16
-- ==== Kernel.lean ====
abbrev S100000x16 : Shape := ⟨2, ![100000, 16]⟩
abbrev S100000x64 : Shape := ⟨2, ![100000, 64]⟩
abbrev S1600000 : Shape := ⟨1, ![1600000]⟩
abbrev S162x128 : Shape := ⟨2, ![162, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x16 : Shape := ⟨2, ![1600000, 16]⟩
abbrev S1600000x64 : Shape := ⟨2, ![1600000, 64]⟩
abbrev S16x128 : Shape := ⟨2, ![16, 128]⟩
abbrev S64x128 : Shape := ⟨2, ![64, 128]⟩
abbrev S1x128 : Shape := ⟨2, ![1, 128]⟩
abbrev S1x64 : Shape := ⟨2, ![1, 64]⟩
abbrev S3200x16 : Shape := ⟨2, ![3200, 16]⟩
abbrev S3200x64 : Shape := ⟨2, ![3200, 64]⟩
abbrev S3200x1 : Shape := ⟨2, ![3200, 1]⟩
abbrev S3200 : Shape := ⟨1, ![3200]⟩
abbrev S3200x128 : Shape := ⟨2, ![3200, 128]⟩

abbrev nBuf : Space → Nat
  | .hbm => 66
  | .vmem => 25
  | .smem => 0
  | _ => 0

abbrev bufTy : (tb : Table) → Fin (tcTables nBuf tb) → BufTy
  | .hbm, ⟨0, _⟩ => ⟨S100000x16, .f32⟩
  | .hbm, ⟨1, _⟩ => ⟨S100000x64, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S162x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x16, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x16, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x1, .f32⟩
  | .hbm, ⟨48, _⟩ => ⟨S16x128, .f32⟩
  | .hbm, ⟨49, _⟩ => ⟨S16x128, .bf16⟩
  | .hbm, ⟨50, _⟩ => ⟨S64x128, .f32⟩
  | .hbm, ⟨51, _⟩ => ⟨S64x128, .bf16⟩
  | .hbm, ⟨52, _⟩ => ⟨S16x128, .f32⟩
  | .hbm, ⟨53, _⟩ => ⟨S16x128, .bf16⟩
  | .hbm, ⟨54, _⟩ => ⟨S64x128, .f32⟩
  | .hbm, ⟨55, _⟩ => ⟨S64x128, .f32⟩
  | .hbm, ⟨56, _⟩ => ⟨S64x128, .bf16⟩
  | .hbm, ⟨57, _⟩ => ⟨S1x128, .f32⟩
  | .hbm, ⟨58, _⟩ => ⟨S1x128, .f32⟩
  | .hbm, ⟨59, _⟩ => ⟨S128x128, .bf16⟩
  | .hbm, ⟨60, _⟩ => ⟨S128x64, .bf16⟩
  | .hbm, ⟨61, _⟩ => ⟨S1x128, .f32⟩
  | .hbm, ⟨62, _⟩ => ⟨S1x128, .f32⟩
  | .hbm, ⟨63, _⟩ => ⟨S1x64, .f32⟩
  | .hbm, ⟨64, _⟩ => ⟨S1600000x1, .f32⟩
  | .hbm, ⟨65, _⟩ => ⟨S1600000x64, .f32⟩
  | .local _ .vmem, ⟨0, _⟩ => ⟨S3200x16, .f32⟩
  | .local _ .vmem, ⟨1, _⟩ => ⟨S3200x16, .f32⟩
  | .local _ .vmem, ⟨2, _⟩ => ⟨S3200x64, .f32⟩
  | .local _ .vmem, ⟨3, _⟩ => ⟨S3200x64, .f32⟩
  | .local _ .vmem, ⟨4, _⟩ => ⟨S3200x16, .f32⟩
  | .local _ .vmem, ⟨5, _⟩ => ⟨S3200x16, .f32⟩
  | .local _ .vmem, ⟨6, _⟩ => ⟨S3200x64, .f32⟩
  | .local _ .vmem, ⟨7, _⟩ => ⟨S3200x64, .f32⟩
  | .local _ .vmem, ⟨8, _⟩ => ⟨S3200x1, .f32⟩
  | .local _ .vmem, ⟨9, _⟩ => ⟨S3200x1, .f32⟩
  | .local _ .vmem, ⟨10, _⟩ => ⟨S16x128, .bf16⟩
  | .local _ .vmem, ⟨11, _⟩ => ⟨S64x128, .bf16⟩
  | .local _ .vmem, ⟨12, _⟩ => ⟨S16x128, .bf16⟩
  | .local _ .vmem, ⟨13, _⟩ => ⟨S64x128, .bf16⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x128, .bf16⟩
  | .local _ .vmem, ⟨18, _⟩ => ⟨S1x128, .f32⟩
  | .local _ .vmem, ⟨19, _⟩ => ⟨S128x64, .bf16⟩
  | .local _ .vmem, ⟨20, _⟩ => ⟨S1x64, .f32⟩
  | .local _ .vmem, ⟨21, _⟩ => ⟨S3200x1, .f32⟩
  | .local _ .vmem, ⟨22, _⟩ => ⟨S3200x1, .f32⟩
  | .local _ .vmem, ⟨23, _⟩ => ⟨S3200x64, .f32⟩
  | .local _ .vmem, ⟨24, _⟩ => ⟨S3200x64, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3200x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S3200x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S3200x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S162x128_S16x128_0_0 : S162x128.Slices ![0, 0] S16x128
  bitsLt_bf16_f32 : FTy.bits .bf16 < FTy.bits .f32
  slices_S162x128_S64x128_16_0 : S162x128.Slices ![16, 0] S64x128
  slices_S162x128_S16x128_80_0 : S162x128.Slices ![80, 0] S16x128
  slices_S162x128_S64x128_96_0 : S162x128.Slices ![96, 0] S64x128
  slices_S162x128_S1x128_160_0 : S162x128.Slices ![160, 0] S1x128
  slices_S162x128_S1x128_161_0 : S162x128.Slices ![161, 0] S1x128
  shapeCasts_S128_S1x128 : S128.ShapeCasts S1x128
  shapeCasts_S64_S1x64 : S64.ShapeCasts S1x64
  inb_S3200x16_S3200x16_0_0 : ∀ a, (![0, 0] : Fin 2 → Nat) a + S3200x16.size a ≤ S3200x16.size a
  h_S3200x16 : 0 < S3200x16.numel
  shapeCasts_S3200x16_S3200x16 : S3200x16.ShapeCasts S3200x16
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  reduces_S3200x64_S3200 : S3200x64.Reduces [1] S3200
  shapeCasts_S3200_S3200x1 : S3200.ShapeCasts S3200x1
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S3200x1_S3200x128 : S3200x1.Broadcasts S3200x128
  broadcasts_S1x128_S3200x128 : S1x128.Broadcasts S3200x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  gather_S100000x16_S1600000x1_S1600000x16_1_0_n_n_0_1_116_wf : GatherDims.WF S100000x16 S1600000x1 S1600000x16 [1] [0] [] [0] [] 1 ![1, 16]
  gather_S100000x64_S1600000x1_S1600000x64_1_0_n_n_0_1_164_wf : GatherDims.WF S100000x64 S1600000x1 S1600000x64 [1] [0] [] [0] [] 1 ![1, 64]
  dot_S3200x16_S16x128_S3200x128_1_0_0_1_n_n_wf : DotDims.WF S3200x16 S16x128 S3200x128 [1] [0] [0] [1] [] []
  dot_S3200x64_S64x128_S3200x128_1_0_0_1_n_n_wf : DotDims.WF S3200x64 S64x128 S3200x128 [1] [0] [0] [1] [] []
  dot_S3200x128_S128x128_S3200x128_1_0_0_1_n_n_wf : DotDims.WF S3200x128 S128x128 S3200x128 [1] [0] [0] [1] [] []
  dot_S3200x128_S128x64_S3200x64_1_0_0_1_n_n_wf : DotDims.WF S3200x128 S128x64 S3200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x16.size a ≤ S1600000x16.size a
  hwx0_0 : ∀ i : grid0.Coords, EltTy.bits .f32 = 32 ∨ (Rect.block (s := S1600000x16) S3200x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S1600000x64.size a
  hwx0_1 : ∀ i : grid0.Coords, EltTy.bits .f32 = 32 ∨ (Rect.block (s := S1600000x64) S3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x16.size a ≤ S1600000x16.size a
  hwx0_2 : ∀ i : grid0.Coords, EltTy.bits .f32 = 32 ∨ (Rect.block (s := S1600000x16) S3200x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x64.size a ≤ S1600000x64.size a
  hwx0_3 : ∀ i : grid0.Coords, EltTy.bits .f32 = 32 ∨ (Rect.block (s := S1600000x64) S3200x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x1.size a ≤ S1600000x1.size a
  hwx0_4 : ∀ i : grid0.Coords, EltTy.bits .f32 = 32 ∨ (Rect.block (s := S1600000x1) S3200x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .bf16 = 32 ∨ (Rect.block (s := S16x128) S16x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .bf16 = 32 ∨ (Rect.block (s := S64x128) S64x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S16x128.size a
  hwx0_7 : ∀ i : grid0.Coords, EltTy.bits .bf16 = 32 ∨ (Rect.block (s := S16x128) S16x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .bf16 = 32 ∨ (Rect.block (s := S64x128) S64x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x64.size a ≤ S128x64.size a
  hwx0_14 : ∀ i : grid0.Coords, EltTy.bits .bf16 = 32 ∨ (Rect.block (s := S128x64) S128x64.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S3200x1.size a ≤ S1600000x1.size a
  hwx0_16 : ∀ i : grid0.Coords, EltTy.bits .f32 = 32 ∨ (Rect.block (s := S1600000x1) S3200x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S3200x64.size a ≤ S1600000x64.size a
  hwx0_17 : ∀ i : grid0.Coords, EltTy.bits .f32 = 32 ∨ (Rect.block (s := S1600000x64) S3200x64.size (cc0_transform_17 i) (hinb0_17 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S3200x16_S16x128_S3200x128_1_0_0_1_n_n : DotDims S3200x16 S16x128 S3200x128 where
  lhsContracting := [1]
  rhsContracting := [0]
  lhsNonContracting := [0]
  rhsNonContracting := [1]
  lhsBatch := []
  rhsBatch := []
  wf := dot_S3200x16_S16x128_S3200x128_1_0_0_1_n_n_wf
def dot_S3200x64_S64x128_S3200x128_1_0_0_1_n_n : DotDims S3200x64 S64x128 S3200x128 where
  lhsContracting := [1]
  rhsContracting := [0]
  lhsNonContracting := [0]
  rhsNonContracting := [1]
  lhsBatch := []
  rhsBatch := []
  wf := dot_S3200x64_S64x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf

abbrev win0_0 : Pipeline.Window sig grid0 :=
  Pipeline.Window.ofSpec (Memref.whole main_v6) S3200x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S3200x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S3200x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S3200x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S16x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v39) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v42) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v40) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v43) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v41) S128x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v44) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v45_0) S3200x1.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v45_1) S3200x64.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S100000x16 : Shape := ⟨2, ![100000, 16]⟩
abbrev S100000x64 : Shape := ⟨2, ![100000, 64]⟩
abbrev S1600000 : Shape := ⟨1, ![1600000]⟩
abbrev S162x128 : Shape := ⟨2, ![162, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x16 : Shape := ⟨2, ![1600000, 16]⟩
abbrev S1600000x64 : Shape := ⟨2, ![1600000, 64]⟩
abbrev S1600000x162 : Shape := ⟨2, ![1600000, 162]⟩
abbrev S1600000x128 : Shape := ⟨2, ![1600000, 128]⟩
abbrev S1x128 : Shape := ⟨2, ![1, 128]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S100000x64, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S162x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x16, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x16, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S_, .f32⟩
  | .hbm, ⟨48, _⟩ => ⟨S_, .f32⟩
  | .hbm, ⟨49, _⟩ => ⟨S1600000x64, .f32⟩
  | .hbm, ⟨50, _⟩ => ⟨S_, .f32⟩
  | .hbm, ⟨51, _⟩ => ⟨S1600000, .f32⟩
  | .hbm, ⟨52, _⟩ => ⟨S1600000x1, .f32⟩
  | .hbm, ⟨53, _⟩ => ⟨S1600000x1, .f32⟩
  | .hbm, ⟨54, _⟩ => ⟨S1600000x1, .f32⟩
  | .hbm, ⟨55, _⟩ => ⟨S1600000x1, .f32⟩
  | .hbm, ⟨56, _⟩ => ⟨S1600000x1, .f32⟩
  | .hbm, ⟨57, _⟩ => ⟨S_, .f32⟩
  | .hbm, ⟨58, _⟩ => ⟨S1600000x1, .f32⟩
  | .hbm, ⟨59, _⟩ => ⟨S1600000x1, .f32⟩
  | .hbm, ⟨60, _⟩ => ⟨S_, .f32⟩
  | .hbm, ⟨61, _⟩ => ⟨S1600000x1, .f32⟩
  | .hbm, ⟨62, _⟩ => ⟨S1600000x1, .f32⟩
  | .hbm, ⟨63, _⟩ => ⟨S1600000x1, .f32⟩
  | .hbm, ⟨64, _⟩ => ⟨S1600000x162, .f32⟩
  | .hbm, ⟨65, _⟩ => ⟨S1600000x128, .f32⟩
  | .hbm, ⟨66, _⟩ => ⟨S1x128, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S1600000x128, .f32⟩
  | .hbm, ⟨71, _⟩ => ⟨S1600000x128, .f32⟩
  | .hbm, ⟨72, _⟩ => ⟨S1600000x128, .f32⟩
  | .hbm, ⟨73, _⟩ => ⟨S1x128, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S1600000x128, .f32⟩
  | .hbm, ⟨78, _⟩ => ⟨S1600000x128, .f32⟩
  | .hbm, ⟨79, _⟩ => ⟨S1600000x64, .f32⟩
  | .hbm, ⟨80, _⟩ => ⟨S1x64, .f32⟩
  | .hbm, ⟨81, _⟩ => ⟨S1600000x64, .f32⟩
  | .hbm, ⟨82, _⟩ => ⟨S1600000x64, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call0_cst : Ref sig .tc := ⟨.hbm, 69, rfl⟩
abbrev main_call0_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x64_S1600000_d1 : S1600000x64.ReducesTo [1] S1600000
  h_S_ : 0 < S_.numel
  bcast_S_S1600000x1 : S_.BroadcastsInDim S1600000x1 (![] : Fin 0 → Fin S1600000x1.rank)
  concatenates_S1600000x16_S1600000x64_S1600000x16_S1600000x64_S1600000x1_S1600000x1_S1600000x162_d1 : Shape.Concatenates [S1600000x16, S1600000x64, S1600000x16, S1600000x64, S1600000x1, S1600000x1] S1600000x162 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  gather_S100000x16_S1600000x1_S1600000x16_1_0_n_n_0_1_116_wf : GatherDims.WF S100000x16 S1600000x1 S1600000x16 [1] [0] [] [0] [] 1 ![1, 16]
  gather_S100000x64_S1600000x1_S1600000x64_1_0_n_n_0_1_164_wf : GatherDims.WF S100000x64 S1600000x1 S1600000x64 [1] [0] [] [0] [] 1 ![1, 64]
  dot_S1600000x162_S162x128_S1600000x128_1_0_0_1_n_n_wf : DotDims.WF S1600000x162 S162x128 S1600000x128 [1] [0] [0] [1] [] []
  dot_S1600000x128_S128x128_S1600000x128_1_0_0_1_n_n_wf : DotDims.WF S1600000x128 S128x128 S1600000x128 [1] [0] [0] [1] [] []
  dot_S1600000x128_S128x64_S1600000x64_1_0_0_1_n_n_wf : DotDims.WF S1600000x128 S128x64 S1600000x64 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x162_S162x128_S1600000x128_1_0_0_1_n_n : DotDims S1600000x162 S162x128 S1600000x128 where
  lhsContracting := [1]
  rhsContracting := [0]
  lhsNonContracting := [0]
  rhsNonContracting := [1]
  lhsBatch := []
  rhsBatch := []
  wf := dot_S1600000x162_S162x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf

class Facts : Prop extends Facts₀ where

variable [Facts]
-- ==== Proof.Spec.lean ====
/-
  The edge network's arithmetic, stated once over the extended reals and independent of either program.

  For every edge e the network forms the attention weight
      attn e = σ( (∑ₖ dh(e,k) · sh(e,k)) · 1/8 ),          σ x = 1 / (1 + exp (-x)),
  multiplies the row  [ df(e,·) | dh(e,·) | sf(e,·) | sh(e,·) | dist e | attn e ]  (162 entries) by W1 (162 × 128),
  adds b1 and clamps below at zero, multiplies by W2 (128 × 128), adds b2 and clamps again, and multiplies by
  W3 (128 × 64) and adds b3.  The product with W1 is written here as the sum of the six partial products over the
  row's six segments, W1's rows 0–15, 16–79, 80–95, 96–159, 160 and 161; that a sum over all 162 rows is the sum
  of these six (sum_rows_split) needs only that addition on the extended reals is associative and commutative,
  so nothing here asks the entries to be finite.  The one scalar law is that dividing by √64 is multiplying by
  the binary fraction 1/8 (div_sqrt_64).

  The row count n is a parameter: the same definitions read a tile of 3200 edges and the whole array of 1 600 000.
-/
import Idealize.ShloMosaic.PureOps.Ideal
import Idealize.ShloMosaic.PureOps.Ideal.Laws
import Idealize.ShloMosaic.Lib.ValueIdx

noncomputable section

open scoped BigOperators

namespace Cert.EdgeMlp

open Idealize.ShloMosaic Idealize.ShloMosaic.ValueIdx

/-! ## The constants -/

/-- The word 0x42800000 is the real 64. -/
theorem ofBits_64 : Ideal.ofBits .f32 0x42800000#32 = ((64 : ℝ) : EReal) := by
  simp [Ideal.ofBits, Ideal.ieee, -EReal.coe_mul]; norm_num

/-- The word 0x3E000000 is the real 1/8. -/
theorem ofBits_eighth : Ideal.ofBits .f32 0x3E000000#32 = ((1 / 8 : ℝ) : EReal) := by
  simp [Ideal.ofBits, Ideal.ieee, -EReal.coe_mul]; norm_num

/-- The word 0x3F800000 is 1. -/
theorem ofBits_one : Ideal.ofBits .f32 0x3F800000#32 = 1 := by
  simp [Ideal.ofBits, Ideal.ieee, -EReal.coe_mul]; norm_num

theorem sqrt_64 : Real.sqrt 64 = 8 := by
  rw [show (64 : ℝ) = 8 ^ 2 by norm_num]; exact Real.sqrt_sq (by norm_num)

/-- Dividing by √64 is multiplying by 1/8, on every extended real. -/
theorem div_sqrt_64 (x : EReal) :
    Ideal.div x (Ideal.sqrt (Ideal.ofBits .f32 0x42800000#32)) = x * Ideal.ofBits .f32 0x3E000000#32 := by
  rw [ofBits_64, ofBits_eighth, Ideal.sqrt_coe, if_neg (by norm_num), sqrt_64, Ideal.div_coe (by norm_num)]

/-! ## A sum over 162 rows, by segments -/

/-- A sum over the 162 rows is the sum over rows 0–15, plus that over 16–79, plus 80–95, plus 96–159, plus rows 160
    and 161, associated to the left. -/
theorem sum_rows_split {M : Type*} [AddCommMonoid M] (f : Fin 162 → M) :
    ∑ k : Fin 162, f k
      = (((((∑ k : Fin 16, f ⟨k.val, by omega⟩) + ∑ k : Fin 64, f ⟨16 + k.val, by omega⟩)
            + ∑ k : Fin 16, f ⟨80 + k.val, by omega⟩) + ∑ k : Fin 64, f ⟨96 + k.val, by omega⟩)
          + f ⟨160, by omega⟩) + f ⟨161, by omega⟩ := by
  let g : ℕ → M := fun k => if h : k < 162 then f ⟨k, h⟩ else 0
  have hg : ∀ (k : ℕ) (h : k < 162), g k = f ⟨k, h⟩ := fun k h => dif_pos h
  have e : ∑ k : Fin 162, f k = ∑ k ∈ Finset.range (16 + 64 + 16 + 64 + 1 + 1), g k := by
    show _ = ∑ k ∈ Finset.range 162, g k
    rw [← Fin.sum_univ_eq_sum_range g 162]; exact Finset.sum_congr rfl fun k _ => (hg k.val k.isLt).symm
  rw [e, Finset.sum_range_add, Finset.sum_range_add, Finset.sum_range_add, Finset.sum_range_add, Finset.sum_range_add,
    Finset.sum_range_one, Finset.sum_range_one,
    ← Fin.sum_univ_eq_sum_range (fun k => g k) 16,
    ← Fin.sum_univ_eq_sum_range (fun k => g (16 + k)) 64,
    ← Fin.sum_univ_eq_sum_range (fun k => g (16 + 64 + k)) 16,
    ← Fin.sum_univ_eq_sum_range (fun k => g (16 + 64 + 16 + k)) 64]
  refine congrArg₂ (· + ·) (congrArg₂ (· + ·) (congrArg₂ (· + ·) (congrArg₂ (· + ·) (congrArg₂ (· + ·) ?_ ?_) ?_) ?_) ?_) ?_
  · exact Finset.sum_congr rfl fun k _ => hg _ _
  · exact Finset.sum_congr rfl fun k _ => hg _ _
  · exact Finset.sum_congr rfl fun k _ => hg _ _
  · exact Finset.sum_congr rfl fun k _ => hg _ _
  · exact hg _ _
  · exact hg _ _

/-! ## The network -/

/-- A matrix of extended reals with r rows and c columns. -/
abbrev Mat (r c : Nat) := FVec Ideal ⟨2, ![r, c]⟩ .f32
/-- A vector of extended reals of length c. -/
abbrev Row (c : Nat) := FVec Ideal ⟨1, ![c]⟩ .f32

variable {n : Nat}

/-- The inner product of edge e's destination and source hidden rows. -/
def score (dh sh : Mat n 64) (e : Fin n) : EReal := ∑ k : Fin 64, dh (ix2 e k) * sh (ix2 e k)

/-- The attention weight of edge e: the logistic function of the score scaled by 1/8. -/
def attn (dh sh : Mat n 64) (e : Fin n) : EReal :=
  Ideal.logistic (score dh sh e * Ideal.ofBits .f32 0x3E000000#32)

/-- Edge e's row times column j of W1, as the six partial products over the row's segments. -/
def lin1 (df : Mat n 16) (dh : Mat n 64) (sf : Mat n 16) (sh : Mat n 64) (d2 : Mat n 1) (W1 : Mat 162 128)
    (e : Fin n) (j : Fin 128) : EReal :=
  (((((∑ k : Fin 16, df (ix2 e k) * W1 (ix2 (⟨k.val, by omega⟩ : Fin 162) j))
        + ∑ k : Fin 64, dh (ix2 e k) * W1 (ix2 (⟨16 + k.val, by omega⟩ : Fin 162) j))
        + ∑ k : Fin 16, sf (ix2 e k) * W1 (ix2 (⟨80 + k.val, by omega⟩ : Fin 162) j))
        + ∑ k : Fin 64, sh (ix2 e k) * W1 (ix2 (⟨96 + k.val, by omega⟩ : Fin 162) j))
        + d2 (ix2 e (0 : Fin 1)) * W1 (ix2 (⟨160, by omega⟩ : Fin 162) j))
        + attn dh sh e * W1 (ix2 (⟨161, by omega⟩ : Fin 162) j)

/-- The first hidden layer: the product with W1 plus b1, clamped below at zero. -/
def hid1 (df : Mat n 16) (dh : Mat n 64) (sf : Mat n 16) (sh : Mat n 64) (d2 : Mat n 1) (W1 : Mat 162 128) (b1 : Row 128)
    (e : Fin n) (j : Fin 128) : EReal :=
  max (lin1 df dh sf sh d2 W1 e j + b1 (ix1 j)) (Ideal.ofBits .f32 0x00000000#32)

/-- The second hidden layer over a first layer u: the product with W2 plus b2, clamped below at zero. -/
def hid2 (u : Fin n → Fin 128 → EReal) (W2 : Mat 128 128) (b2 : Row 128) (e : Fin n) (j : Fin 128) : EReal :=
  max ((∑ k : Fin 128, u e k * W2 (ix2 k j)) + b2 (ix1 j)) (Ideal.ofBits .f32 0x00000000#32)

/-- The output layer over a second layer u: the product with W3 plus b3. -/
def outL (u : Fin n → Fin 128 → EReal) (W3 : Mat 128 64) (b3 : Row 64) (e : Fin n) (j : Fin 64) : EReal :=
  (∑ k : Fin 128, u e k * W3 (ix2 k j)) + b3 (ix1 j)

/-- The edge features: the three layers composed. -/
def edgeH (df : Mat n 16) (dh : Mat n 64) (sf : Mat n 16) (sh : Mat n 64) (d2 : Mat n 1) (W1 : Mat 162 128) (b1 : Row 128)
    (W2 : Mat 128 128) (b2 : Row 128) (W3 : Mat 128 64) (b3 : Row 64) (e : Fin n) (j : Fin 64) : EReal :=
  outL (hid2 (hid1 df dh sf sh d2 W1 b1) W2 b2) W3 b3 e j

/-! ## Each edge reads only its own rows

A tile of the edge arrays is a restriction of them to a run of rows; the network's value at an edge of the tile is its
value at that edge of the whole arrays. -/

/-- The attention weight of an edge depends only on that edge's two hidden rows. -/
theorem attn_rows {n N : Nat} (f : Fin n → Fin N) (dhT shT : Mat n 64) (dhA shA : Mat N 64)
    (h1 : ∀ (p : Fin n) (k : Fin 64), dhT (ix2 p k) = dhA (ix2 (f p) k))
    (h3 : ∀ (p : Fin n) (k : Fin 64), shT (ix2 p k) = shA (ix2 (f p) k)) (p : Fin n) :
    attn dhT shT p = attn dhA shA (f p) := by
  unfold attn score; simp only [h1, h3]

/-- The edge features of an edge depend only on that edge's rows of the five edge arrays. -/
theorem edgeH_rows {n N : Nat} (f : Fin n → Fin N)
    (dfT : Mat n 16) (dhT : Mat n 64) (sfT : Mat n 16) (shT : Mat n 64) (d2T : Mat n 1)
    (dfA : Mat N 16) (dhA : Mat N 64) (sfA : Mat N 16) (shA : Mat N 64) (d2A : Mat N 1)
    (h0 : ∀ (p : Fin n) (k : Fin 16), dfT (ix2 p k) = dfA (ix2 (f p) k))
    (h1 : ∀ (p : Fin n) (k : Fin 64), dhT (ix2 p k) = dhA (ix2 (f p) k))
    (h2 : ∀ (p : Fin n) (k : Fin 16), sfT (ix2 p k) = sfA (ix2 (f p) k))
    (h3 : ∀ (p : Fin n) (k : Fin 64), shT (ix2 p k) = shA (ix2 (f p) k))
    (h4 : ∀ (p : Fin n) (q : Fin 1), d2T (ix2 p q) = d2A (ix2 (f p) q))
    (W1 : Mat 162 128) (b1 : Row 128) (W2 : Mat 128 128) (b2 : Row 128) (W3 : Mat 128 64) (b3 : Row 64)
    (p : Fin n) (j : Fin 64) :
    edgeH dfT dhT sfT shT d2T W1 b1 W2 b2 W3 b3 p j = edgeH dfA dhA sfA shA d2A W1 b1 W2 b2 W3 b3 (f p) j := by
  unfold edgeH outL hid2 hid1 lin1 attn score; simp only [h0, h1, h2, h3, h4]

/-! ## The two result arrays -/

/-- The attention weights as a column array over all edges. -/
def attnArr (dh sh : Mat 1600000 64) : FVec Ideal ⟨2, ![1600000, 1]⟩ .f32 :=
  fun i => attn dh sh ⟨(i 0).val, idx2_lt0 i⟩

/-- The edge features as an array over all edges. -/
def edgeArr (df : Mat 1600000 16) (dh : Mat 1600000 64) (sf : Mat 1600000 16) (sh : Mat 1600000 64) (d2 : Mat 1600000 1)
    (W1 : Mat 162 128) (b1 : Row 128) (W2 : Mat 128 128) (b2 : Row 128) (W3 : Mat 128 64) (b3 : Row 64) :
    FVec Ideal ⟨2, ![1600000, 64]⟩ .f32 :=
  fun i => edgeH df dh sf sh d2 W1 b1 W2 b2 W3 b3 ⟨(i 0).val, idx2_lt0 i⟩ ⟨(i 1).val, idx2_lt1 i⟩

end Cert.EdgeMlp

end
-- ==== Proof.MatProd.lean ====
/-
  A matrix product [M,K] · [K,N] accumulated into zeros, read at one entry.

  Over the extended reals the product's entry (p, j) is the plain sum  ∑ₖ l(p,k) · r(k,j)  over the K positions of the
  contracted axis.  The dimension record's own index functions say which coordinate of each operand the contraction
  position and the output index supply; the four hypotheses state exactly that for a product that contracts the left
  operand's columns against the right operand's rows, and each program's records satisfy them by unfolding.
-/
import Idealize.ShloMosaic.PureOps.Ideal.Laws
import Idealize.ShloMosaic.Lib.ValueIdx

noncomputable section

open scoped BigOperators

namespace Cert.EdgeMlp

open Idealize.ShloMosaic Idealize.ShloMosaic.ValueIdx

/-- Entry (p, j) of a rows-by-columns product into a zero accumulator is ∑ₖ l(p,k) · r(k,j). -/
theorem matmul_zero_at {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂)
    (p : Fin M) (j : Fin N) :
    FloatOps.matmul d prec l r (constant (F := Ideal) ⟨2, ![M, N]⟩ .f32 0x00000000#32) (ix2 p j)
      = ∑ k : Fin K, l (ix2 p k) * r (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.EdgeMlp

end
-- ==== Proof.Layout.lean ====
/-
  Two layout operations on a column, read at an entry: a vector of length a recast as an a-by-1 column keeps its
  entries, and an a-by-1 column broadcast along rows of length b repeats each entry across its row.  Also the sum
  of a matrix's rows along their length, as a sum over the column positions.
-/
import Idealize.ShloMosaic.PureOps.Ideal.Laws
import Idealize.ShloMosaic.Lib.Pipeline.Value
import Idealize.ShloMosaic.Lib.ValueIdx

noncomputable section

open scoped BigOperators

namespace Cert.EdgeMlp

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a-by-1 column broadcast to a-by-b reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an a-by-b matrix along each row, with the zero word as the starting value, is at row p the sum over
    the b column positions. -/
theorem rowsum_at {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  refine Finset.sum_congr rfl fun k _ => congrArg src (funext fun ax => Fin.ext ?_)
  match ax with
  | ⟨0, _⟩ => rfl
  | ⟨1, _⟩ => rfl

end Cert.EdgeMlp

end
-- ==== Proof.TileBody.lean ====
/-
  One tile of the kernel: what the body computes from its loaded blocks, entry by entry.

  The body loads a tile of 3200 edges — the four gathered feature blocks and the distance column — and the weight
  blocks.  It forms the attention column  σ((∑ₖ dh(p,k) · sh(p,k)) · 1/8) , the four partial products of the feature
  blocks with W1's row segments, adds the distance and attention columns times W1's last two rows and the bias, clamps
  below at zero, and applies the two remaining dense layers.  Read at entry (p, j) each matrix product is a plain sum
  over the contracted axis, each broadcast repeats a column or a row, and the format changes are the identity, so
  the stored values are the network's attention weight and edge features of the tile's rows.
-/
import proofs.«140982_j24137716203976_1_alg».proof.Proof.Gen.KernelIdeal.Skeleton
import proofs.«140982_j24137716203976_1_alg».proof.Proof.Spec
import proofs.«140982_j24137716203976_1_alg».proof.Proof.MatProd
import proofs.«140982_j24137716203976_1_alg».proof.Proof.Layout
import Idealize.ShloMosaic.Lib.ValueLayout

noncomputable section

open scoped BigOperators

namespace Cert.KernelIdeal.Tile

open Cert.KernelIdeal Cert.KernelIdeal.Gen Cert.EdgeMlp Idealize.ShloMosaic Idealize.ShloMosaic.ValueIdx

/-! ## The four products' index functions

Each product contracts the left operand's columns against the right operand's rows: the left index is (row of the
output, contraction position) and the right index is (contraction position, column of the output). -/

theorem lhs16_0 (i : S3200x128.Idx) (q : dot_S3200x16_S16x128_S3200x128_1_0_0_1_n_n.contr.Idx) : (dot_S3200x16_S16x128_S3200x128_1_0_0_1_n_n.lhsIdx i q 0).val = (i 0).val := by
  unfold DotDims.lhsIdx
  rw [dif_neg (show ¬(0 : Fin S3200x16.rank) ∈ dot_S3200x16_S16x128_S3200x128_1_0_0_1_n_n.lhsBatch by decide), dif_pos (show (0 : Fin S3200x16.rank) ∈ dot_S3200x16_S16x128_S3200x128_1_0_0_1_n_n.lhsNonContracting by decide)]
  rfl
theorem lhs16_1 (i : S3200x128.Idx) (q : dot_S3200x16_S16x128_S3200x128_1_0_0_1_n_n.contr.Idx) : (dot_S3200x16_S16x128_S3200x128_1_0_0_1_n_n.lhsIdx i q 1).val = (q ⟨0, by decide⟩).val :=
  dot_S3200x16_S16x128_S3200x128_1_0_0_1_n_n.lhsIdx_val_of_single rfl i q
theorem rhs16_0 (i : S3200x128.Idx) (q : dot_S3200x16_S16x128_S3200x128_1_0_0_1_n_n.contr.Idx) : (dot_S3200x16_S16x128_S3200x128_1_0_0_1_n_n.rhsIdx i q 0).val = (q ⟨0, by decide⟩).val :=
  dot_S3200x16_S16x128_S3200x128_1_0_0_1_n_n.rhsIdx_val_of_single rfl i q
theorem rhs16_1 (i : S3200x128.Idx) (q : dot_S3200x16_S16x128_S3200x128_1_0_0_1_n_n.contr.Idx) : (dot_S3200x16_S16x128_S3200x128_1_0_0_1_n_n.rhsIdx i q 1).val = (i 1).val := by
  unfold DotDims.rhsIdx
  rw [dif_neg (show ¬(1 : Fin S16x128.rank) ∈ dot_S3200x16_S16x128_S3200x128_1_0_0_1_n_n.rhsBatch by decide), dif_pos (show (1 : Fin S16x128.rank) ∈ dot_S3200x16_S16x128_S3200x128_1_0_0_1_n_n.rhsNonContracting by decide)]
  rfl

theorem lhs64_0 (i : S3200x128.Idx) (q : dot_S3200x64_S64x128_S3200x128_1_0_0_1_n_n.contr.Idx) : (dot_S3200x64_S64x128_S3200x128_1_0_0_1_n_n.lhsIdx i q 0).val = (i 0).val := by
  unfold DotDims.lhsIdx
  rw [dif_neg (show ¬(0 : Fin S3200x64.rank) ∈ dot_S3200x64_S64x128_S3200x128_1_0_0_1_n_n.lhsBatch by decide), dif_pos (show (0 : Fin S3200x64.rank) ∈ dot_S3200x64_S64x128_S3200x128_1_0_0_1_n_n.lhsNonContracting by decide)]
  rfl
theorem lhs64_1 (i : S3200x128.Idx) (q : dot_S3200x64_S64x128_S3200x128_1_0_0_1_n_n.contr.Idx) : (dot_S3200x64_S64x128_S3200x128_1_0_0_1_n_n.lhsIdx i q 1).val = (q ⟨0, by decide⟩).val :=
  dot_S3200x64_S64x128_S3200x128_1_0_0_1_n_n.lhsIdx_val_of_single rfl i q
theorem rhs64_0 (i : S3200x128.Idx) (q : dot_S3200x64_S64x128_S3200x128_1_0_0_1_n_n.contr.Idx) : (dot_S3200x64_S64x128_S3200x128_1_0_0_1_n_n.rhsIdx i q 0).val = (q ⟨0, by decide⟩).val :=
  dot_S3200x64_S64x128_S3200x128_1_0_0_1_n_n.rhsIdx_val_of_single rfl i q
theorem rhs64_1 (i : S3200x128.Idx) (q : dot_S3200x64_S64x128_S3200x128_1_0_0_1_n_n.contr.Idx) : (dot_S3200x64_S64x128_S3200x128_1_0_0_1_n_n.rhsIdx i q 1).val = (i 1).val := by
  unfold DotDims.rhsIdx
  rw [dif_neg (show ¬(1 : Fin S64x128.rank) ∈ dot_S3200x64_S64x128_S3200x128_1_0_0_1_n_n.rhsBatch by decide), dif_pos (show (1 : Fin S64x128.rank) ∈ dot_S3200x64_S64x128_S3200x128_1_0_0_1_n_n.rhsNonContracting by decide)]
  rfl

theorem lhs128_0 (i : S3200x128.Idx) (q : dot_S3200x128_S128x128_S3200x128_1_0_0_1_n_n.contr.Idx) : (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl
theorem lhs128_1 (i : S3200x128.Idx) (q : dot_S3200x128_S128x128_S3200x128_1_0_0_1_n_n.contr.Idx) : (dot_S3200x128_S128x128_S3200x128_1_0_0_1_n_n.lhsIdx i q 1).val = (q ⟨0, by decide⟩).val :=
  dot_S3200x128_S128x128_S3200x128_1_0_0_1_n_n.lhsIdx_val_of_single rfl i q
theorem rhs128_0 (i : S3200x128.Idx) (q : dot_S3200x128_S128x128_S3200x128_1_0_0_1_n_n.contr.Idx) : (dot_S3200x128_S128x128_S3200x128_1_0_0_1_n_n.rhsIdx i q 0).val = (q ⟨0, by decide⟩).val :=
  dot_S3200x128_S128x128_S3200x128_1_0_0_1_n_n.rhsIdx_val_of_single rfl i q
theorem rhs128_1 (i : S3200x128.Idx) (q : dot_S3200x128_S128x128_S3200x128_1_0_0_1_n_n.contr.Idx) : (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

theorem lhsOut_0 (i : S3200x64.Idx) (q : dot_S3200x128_S128x64_S3200x64_1_0_0_1_n_n.contr.Idx) : (dot_S3200x128_S128x64_S3200x64_1_0_0_1_n_n.lhsIdx i q 0).val = (i 0).val := by
  unfold DotDims.lhsIdx
  rw [dif_neg (show ¬(0 : Fin S3200x128.rank) ∈ dot_S3200x128_S128x64_S3200x64_1_0_0_1_n_n.lhsBatch by decide), dif_pos (show (0 : Fin S3200x128.rank) ∈ dot_S3200x128_S128x64_S3200x64_1_0_0_1_n_n.lhsNonContracting by decide)]
  rfl
theorem lhsOut_1 (i : S3200x64.Idx) (q : dot_S3200x128_S128x64_S3200x64_1_0_0_1_n_n.contr.Idx) : (dot_S3200x128_S128x64_S3200x64_1_0_0_1_n_n.lhsIdx i q 1).val = (q ⟨0, by decide⟩).val :=
  dot_S3200x128_S128x64_S3200x64_1_0_0_1_n_n.lhsIdx_val_of_single rfl i q
theorem rhsOut_0 (i : S3200x64.Idx) (q : dot_S3200x128_S128x64_S3200x64_1_0_0_1_n_n.contr.Idx) : (dot_S3200x128_S128x64_S3200x64_1_0_0_1_n_n.rhsIdx i q 0).val = (q ⟨0, by decide⟩).val :=
  dot_S3200x128_S128x64_S3200x64_1_0_0_1_n_n.rhsIdx_val_of_single rfl i q
theorem rhsOut_1 (i : S3200x64.Idx) (q : dot_S3200x128_S128x64_S3200x64_1_0_0_1_n_n.contr.Idx) : (dot_S3200x128_S128x64_S3200x64_1_0_0_1_n_n.rhsIdx i q 1).val = (i 1).val := by
  unfold DotDims.rhsIdx
  rw [dif_neg (show ¬(1 : Fin S128x64.rank) ∈ dot_S3200x128_S128x64_S3200x64_1_0_0_1_n_n.rhsBatch by decide), dif_pos (show (1 : Fin S128x64.rank) ∈ dot_S3200x128_S128x64_S3200x64_1_0_0_1_n_n.rhsNonContracting by decide)]
  rfl

/-! ## The four products at an entry -/

theorem mm16_at (l : FVec Ideal S3200x16 .bf16) (r : FVec Ideal S16x128 .bf16) (p : Fin 3200) (j : Fin 128) :
    matmul dot_S3200x16_S16x128_S3200x128_1_0_0_1_n_n none l r (constant (F := Ideal) S3200x128 .f32 0x00000000#32) (ix2 p j) = ∑ k : Fin 16, l (ix2 p k) * r (ix2 k j) :=
  matmul_zero_at dot_S3200x16_S16x128_S3200x128_1_0_0_1_n_n rfl rfl lhs16_0 lhs16_1 rhs16_0 rhs16_1 none l r p j

theorem mm64_at (l : FVec Ideal S3200x64 .bf16) (r : FVec Ideal S64x128 .bf16) (p : Fin 3200) (j : Fin 128) :
    matmul dot_S3200x64_S64x128_S3200x128_1_0_0_1_n_n none l r (constant (F := Ideal) S3200x128 .f32 0x00000000#32) (ix2 p j) = ∑ k : Fin 64, l (ix2 p k) * r (ix2 k j) :=
  matmul_zero_at dot_S3200x64_S64x128_S3200x128_1_0_0_1_n_n rfl rfl lhs64_0 lhs64_1 rhs64_0 rhs64_1 none l r p j

theorem mm128_at (l : FVec Ideal S3200x128 .bf16) (r : FVec Ideal S128x128 .bf16) (p : Fin 3200) (j : Fin 128) :
    matmul dot_S3200x128_S128x128_S3200x128_1_0_0_1_n_n none l r (constant (F := Ideal) S3200x128 .f32 0x00000000#32) (ix2 p j) = ∑ k : Fin 128, l (ix2 p k) * r (ix2 k j) :=
  matmul_zero_at dot_S3200x128_S128x128_S3200x128_1_0_0_1_n_n rfl rfl lhs128_0 lhs128_1 rhs128_0 rhs128_1 none l r p j

theorem mmOut_at (l : FVec Ideal S3200x128 .bf16) (r : FVec Ideal S128x64 .bf16) (p : Fin 3200) (j : Fin 64) :
    matmul dot_S3200x128_S128x64_S3200x64_1_0_0_1_n_n none l r (constant (F := Ideal) S3200x64 .f32 0x00000000#32) (ix2 p j) = ∑ k : Fin 128, l (ix2 p k) * r (ix2 k j) :=
  matmul_zero_at dot_S3200x128_S128x64_S3200x64_1_0_0_1_n_n rfl rfl lhsOut_0 lhsOut_1 rhsOut_0 rhsOut_1 none l r p j

/-! ## The payloads at an entry -/

/-- The attention column at row p is the network's attention weight of the tile's hidden rows. -/
theorem pay4_at (v2 v6 : FVec Ideal S3200x64 .f32) (p : Fin 3200) (q : Fin 1) :
    k0_pay4 (F := Ideal) v2 v6 (ix2 p q) = attn v2 v6 p := by
  unfold k0_pay4 k0_pay1 k0_pay2 attn score
  refine congrArg (fun x => Ideal.logistic (x * Ideal.ofBits .f32 0x3E000000#32)) ?_
  refine (shapeCast_a_a1_apply _ shapeCasts_S3200_S3200x1 p q).trans ?_
  refine (rowsum_at _ reduces_S3200x64_S3200 _ _ p).trans ?_
  rw [shapeCast_self, shapeCast_self]; rfl

/-- The four partial products with W1's row segments, summed, at (p, j). -/
theorem pay5_at (v0 : FVec Ideal S3200x16 .f32) (v2 : FVec Ideal S3200x64 .f32) (v4 : FVec Ideal S3200x16 .f32)
    (v6 : FVec Ideal S3200x64 .f32) (v20 : FVec Ideal S16x128 .bf16) (v23 : FVec Ideal S64x128 .bf16)
    (v27 : FVec Ideal S16x128 .bf16) (v31 : FVec Ideal S64x128 .bf16) (p : Fin 3200) (j : Fin 128) :
    k0_pay5 (F := Ideal) v0 v2 v4 v6 v20 v23 v27 v31 (ix2 p j)
      = (((∑ k : Fin 16, v0 (ix2 p k) * v20 (ix2 k j)) + ∑ k : Fin 64, v2 (ix2 p k) * v23 (ix2 k j))
          + ∑ k : Fin 16, v4 (ix2 p k) * v27 (ix2 k j)) + ∑ k : Fin 64, v6 (ix2 p k) * v31 (ix2 k j) := by
  unfold k0_pay5 k0_pay1 k0_pay2
  simp only [shapeCast_self]
  rw [addf_apply, addf_apply, addf_apply, mm16_at, mm64_at, mm16_at, mm64_at]
  rfl

/-- The two remaining layers over the first layer's pre-activation pieces, at (p, j). -/
theorem pay6_at (v9 v15 : FVec Ideal S3200x1 .f32) (v34 : FVec Ideal S3200x128 .f32) (v35 v41 v47 : FVec Ideal S1x128 .f32)
    (v54 : FVec Ideal S128x128 .bf16) (v57 : FVec Ideal S1x128 .f32) (v64 : FVec Ideal S128x64 .bf16) (v67 : FVec Ideal S1x64 .f32)
    (p : Fin 3200) (j : Fin 64) :
    k0_pay6 (F := Ideal) v9 v15 v34 v35 v41 v47 v54 v57 v64 v67 (ix2 p j)
      = (∑ k : Fin 128,
          max ((∑ k' : Fin 128,
                max (((v34 (ix2 p k') + v9 (ix2 p (0 : Fin 1)) * v35 (ix2 (0 : Fin 1) k'))
                        + v15 (ix2 p (0 : Fin 1)) * v41 (ix2 (0 : Fin 1) k')) + v47 (ix2 (0 : Fin 1) k'))
                    (Ideal.ofBits .f32 0x00000000#32)
                  * v54 (ix2 k' k)) + v57 (ix2 (0 : Fin 1) k)) (Ideal.ofBits .f32 0x00000000#32)
            * v64 (ix2 k j)) + v67 (ix2 (0 : Fin 1) j) := by
  unfold k0_pay6
  simp only [shapeCast_self]
  simp only [addf_apply, mulf_apply, maximumf_apply, truncf_apply, broadcast_apply, mmOut_at, mm128_at,
    broadcastTo_1b_ab_apply, broadcastTo_a1_ab_apply]
  rfl

/-- The edge-feature payload at (p, j) is the network's edge features of the tile's rows, when the weight blocks hold
    W1's row segments, W2, W3 and the biases as rows. -/
theorem tile_edge_at
    (x0 : FVec Ideal S3200x16 .f32) (x1 : FVec Ideal S3200x64 .f32) (x2 : FVec Ideal S3200x16 .f32) (x3 : FVec Ideal S3200x64 .f32)
    (x4 : FVec Ideal S3200x1 .f32)
    (w5 : FVec Ideal S16x128 .bf16) (w6 : FVec Ideal S64x128 .bf16) (w7 : FVec Ideal S16x128 .bf16) (w8 : FVec Ideal S64x128 .bf16)
    (w9 w10 w11 : FVec Ideal S1x128 .f32) (w12 : FVec Ideal S128x128 .bf16) (w13 : FVec Ideal S1x128 .f32)
    (w14 : FVec Ideal S128x64 .bf16) (w15 : FVec Ideal S1x64 .f32)
    (W1 : Mat 162 128) (b1 : Row 128) (W2 : Mat 128 128) (b2 : Row 128) (W3 : Mat 128 64) (b3 : Row 64)
    (h5 : ∀ (k : Fin 16) (j : Fin 128), w5 (ix2 k j) = W1 (ix2 (⟨k.val, by omega⟩ : Fin 162) j))
    (h6 : ∀ (k : Fin 64) (j : Fin 128), w6 (ix2 k j) = W1 (ix2 (⟨16 + k.val, by omega⟩ : Fin 162) j))
    (h7 : ∀ (k : Fin 16) (j : Fin 128), w7 (ix2 k j) = W1 (ix2 (⟨80 + k.val, by omega⟩ : Fin 162) j))
    (h8 : ∀ (k : Fin 64) (j : Fin 128), w8 (ix2 k j) = W1 (ix2 (⟨96 + k.val, by omega⟩ : Fin 162) j))
    (h9 : ∀ (j : Fin 128), w9 (ix2 (0 : Fin 1) j) = W1 (ix2 (⟨160, by omega⟩ : Fin 162) j))
    (h10 : ∀ (j : Fin 128), w10 (ix2 (0 : Fin 1) j) = W1 (ix2 (⟨161, by omega⟩ : Fin 162) j))
    (h11 : ∀ (j : Fin 128), w11 (ix2 (0 : Fin 1) j) = b1 (ix1 j))
    (h12 : ∀ (k j : Fin 128), w12 (ix2 k j) = W2 (ix2 k j))
    (h13 : ∀ (j : Fin 128), w13 (ix2 (0 : Fin 1) j) = b2 (ix1 j))
    (h14 : ∀ (k : Fin 128) (j : Fin 64), w14 (ix2 k j) = W3 (ix2 k j))
    (h15 : ∀ (j : Fin 64), w15 (ix2 (0 : Fin 1) j) = b3 (ix1 j))
    (p : Fin 3200) (j : Fin 64) :
    k0_pay6 (F := Ideal) (k0_pay3 x4) (k0_pay4 x1 x3) (k0_pay5 x0 x1 x2 x3 w5 w6 w7 w8) w9 w10 w11 w12 w13 w14 w15 (ix2 p j)
      = edgeH x0 x1 x2 x3 x4 W1 b1 W2 b2 W3 b3 p j := by
  rw [pay6_at]
  unfold edgeH outL hid2 hid1 lin1
  simp only [pay5_at, pay4_at, k0_pay3, shapeCast_self, h5, h6, h7, h8, h9, h10, h11, h12, h13, h14, h15]

end Cert.KernelIdeal.Tile

end
-- ==== Proof.HostArrays.lean ====
/-
  The arrays the kernel's region finds, as functions of the arguments.

  Before the region the program gathers the destination and source rows (a negative index counting from the end),
  turns the distances into a column, cuts W1 into its six row segments, and recasts the biases as rows; the format
  changes of the weights are the identity on extended reals.  So the region's five edge arrays are the four gathers and
  the distance column, and its weight arrays read, entry by entry, as W1's rows 0–15, 16–79, 80–95, 96–159, 160
  and 161, as W2 and W3, and as the three biases.
-/
import proofs.«140982_j24137716203976_1_alg».proof.Proof.Gen.KernelIdeal.Value
import proofs.«140982_j24137716203976_1_alg».proof.Proof.TileBody
import Idealize.ShloMosaic.Lib.StableHlo.Run
import Idealize.ShloMosaic.Lib.ValueLayout
import Idealize.ShloMosaic.Lib.Pipeline.Value

set_option maxRecDepth 16384

noncomputable section

open scoped BigOperators

namespace Cert.KernelIdeal.Whole

open Cert.KernelIdeal Cert.KernelIdeal.Gen Cert.KernelIdeal.Value Cert.KernelIdeal.Tile Cert.EdgeMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds -/

/-- The row numbers a gather reads: a negative index counts from the end (100000 is added to it). -/
def rowsOf (a : (⟨S1600000, .i32⟩ : BufTy).Contents (Elt Ideal)) : (⟨S1600000x1, .i32⟩ : BufTy).Contents (Elt Ideal) :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- The feature rows gathered at an index array. -/
def gatherF (a0 : (⟨S100000x16, .f32⟩ : BufTy).Contents (Elt Ideal)) (a : (⟨S1600000, .i32⟩ : BufTy).Contents (Elt Ideal)) :
    (⟨S1600000x16, .f32⟩ : BufTy).Contents (Elt Ideal) :=
  Host.gather gather_S100000x16_S1600000x1_S1600000x16_1_0_n_n_0_1_116 a0 (rowsOf a)

/-- The hidden rows gathered at an index array. -/
def gatherH (a1 : (⟨S100000x64, .f32⟩ : BufTy).Contents (Elt Ideal)) (a : (⟨S1600000, .i32⟩ : BufTy).Contents (Elt Ideal)) :
    (⟨S1600000x64, .f32⟩ : BufTy).Contents (Elt Ideal) :=
  Host.gather gather_S100000x64_S1600000x1_S1600000x64_1_0_n_n_0_1_164 a1 (rowsOf a)

/-- The distances as a column. -/
def distCol (a2 : (⟨S1600000, .f32⟩ : BufTy).Contents (Elt Ideal)) : (⟨S1600000x1, .f32⟩ : BufTy).Contents (Elt Ideal) :=
  broadcastInDim S1600000x1 ![0] bcast_S1600000_S1600000x1_0 a2

set_option maxHeartbeats 4000000 in
theorem V_dstF (c : Dev nD) : V m c main_v6 = gatherF (m ((c : Thread nD τ).loc main_arg0)) (m ((c : Thread nD τ).loc main_arg4)) := by
  unfold V; after_results; rfl
set_option maxHeartbeats 4000000 in
theorem V_dstH (c : Dev nD) : V m c main_v13 = gatherH (m ((c : Thread nD τ).loc main_arg1)) (m ((c : Thread nD τ).loc main_arg4)) := by
  unfold V; after_results; rfl
set_option maxHeartbeats 4000000 in
theorem V_srcF (c : Dev nD) : V m c main_v20 = gatherF (m ((c : Thread nD τ).loc main_arg0)) (m ((c : Thread nD τ).loc main_arg3)) := by
  unfold V; after_results; rfl
set_option maxHeartbeats 4000000 in
theorem V_srcH (c : Dev nD) : V m c main_v27 = gatherH (m ((c : Thread nD τ).loc main_arg1)) (m ((c : Thread nD τ).loc main_arg3)) := by
  unfold V; after_results; rfl
set_option maxHeartbeats 4000000 in
theorem V_dist (c : Dev nD) : V m c main_v28 = distCol (m ((c : Thread nD τ).loc main_arg2)) := by
  unfold V; after_results; rfl

/-! ## The weight arrays' entries: W1's row segments, W2, W3 and the biases -/

theorem W1a_at (c : Dev nD) (k : Fin 16) (j : Fin 128) :
    (V m c main_v30 : FVec Ideal S16x128 .bf16) (ix2 k j) = ((m ((c : Thread nD τ).loc main_arg5)) : FVec Ideal S162x128 .f32) (ix2 (⟨k.val, by omega⟩ : Fin 162) j) := by
  have e : @Eq (FVec Ideal S16x128 .bf16) (V m c main_v30) (truncf .bf16 (extractStridedSlice S16x128 ![0, 0] ((m ((c : Thread nD τ).loc main_arg5)) : FVec Ideal S162x128 .f32) slices_S162x128_S16x128_0_0) bitsLt_bf16_f32) := by
    unfold V; after_results
  exact (congrFun e _).trans (slice2_axis0_apply 0 _ slices_S162x128_S16x128_0_0 k j ⟨k.val, by omega⟩ (Nat.zero_add _).symm)

theorem W1b_at (c : Dev nD) (k : Fin 64) (j : Fin 128) :
    (V m c main_v32 : FVec Ideal S64x128 .bf16) (ix2 k j) = ((m ((c : Thread nD τ).loc main_arg5)) : FVec Ideal S162x128 .f32) (ix2 (⟨16 + k.val, by omega⟩ : Fin 162) j) := by
  have e : @Eq (FVec Ideal S64x128 .bf16) (V m c main_v32) (truncf .bf16 (extractStridedSlice S64x128 ![16, 0] ((m ((c : Thread nD τ).loc main_arg5)) : FVec Ideal S162x128 .f32) slices_S162x128_S64x128_16_0) bitsLt_bf16_f32) := by
    unfold V; after_results
  exact (congrFun e _).trans (slice2_axis0_apply 16 _ slices_S162x128_S64x128_16_0 k j ⟨16 + k.val, by omega⟩ rfl)

theorem W1c_at (c : Dev nD) (k : Fin 16) (j : Fin 128) :
    (V m c main_v34 : FVec Ideal S16x128 .bf16) (ix2 k j) = ((m ((c : Thread nD τ).loc main_arg5)) : FVec Ideal S162x128 .f32) (ix2 (⟨80 + k.val, by omega⟩ : Fin 162) j) := by
  have e : @Eq (FVec Ideal S16x128 .bf16) (V m c main_v34) (truncf .bf16 (extractStridedSlice S16x128 ![80, 0] ((m ((c : Thread nD τ).loc main_arg5)) : FVec Ideal S162x128 .f32) slices_S162x128_S16x128_80_0) bitsLt_bf16_f32) := by
    unfold V; after_results
  exact (congrFun e _).trans (slice2_axis0_apply 80 _ slices_S162x128_S16x128_80_0 k j ⟨80 + k.val, by omega⟩ rfl)

theorem W1d_at (c : Dev nD) (k : Fin 64) (j : Fin 128) :
    (V m c main_v37 : FVec Ideal S64x128 .bf16) (ix2 k j) = ((m ((c : Thread nD τ).loc main_arg5)) : FVec Ideal S162x128 .f32) (ix2 (⟨96 + k.val, by omega⟩ : Fin 162) j) := by
  have e : @Eq (FVec Ideal S64x128 .bf16) (V m c main_v37) (truncf .bf16 (extractStridedSlice S64x128 ![96, 0] ((m ((c : Thread nD τ).loc main_arg5)) : FVec Ideal S162x128 .f32) slices_S162x128_S64x128_96_0) bitsLt_bf16_f32) := by
    unfold V; after_results
  exact (congrFun e _).trans (slice2_axis0_apply 96 _ slices_S162x128_S64x128_96_0 k j ⟨96 + k.val, by omega⟩ rfl)

theorem W1e_at (c : Dev nD) (j : Fin 128) :
    (V m c main_v38 : FVec Ideal S1x128 .f32) (ix2 (0 : Fin 1) j) = ((m ((c : Thread nD τ).loc main_arg5)) : FVec Ideal S162x128 .f32) (ix2 (⟨160, by omega⟩ : Fin 162) j) := by
  have e : @Eq (FVec Ideal S1x128 .f32) (V m c main_v38) (extractStridedSlice S1x128 ![160, 0] ((m ((c : Thread nD τ).loc main_arg5)) : FVec Ideal S162x128 .f32) slices_S162x128_S1x128_160_0) := by
    unfold V; after_results
  exact (congrFun e _).trans (slice2_axis0_apply 160 _ slices_S162x128_S1x128_160_0 (0 : Fin 1) j ⟨160, by omega⟩ rfl)

theorem W1f_at (c : Dev nD) (j : Fin 128) :
    (V m c main_v39 : FVec Ideal S1x128 .f32) (ix2 (0 : Fin 1) j) = ((m ((c : Thread nD τ).loc main_arg5)) : FVec Ideal S162x128 .f32) (ix2 (⟨161, by omega⟩ : Fin 162) j) := by
  have e : @Eq (FVec Ideal S1x128 .f32) (V m c main_v39) (extractStridedSlice S1x128 ![161, 0] ((m ((c : Thread nD τ).loc main_arg5)) : FVec Ideal S162x128 .f32) slices_S162x128_S1x128_161_0) := by
    unfold V; after_results
  exact (congrFun e _).trans (slice2_axis0_apply 161 _ slices_S162x128_S1x128_161_0 (0 : Fin 1) j ⟨161, by omega⟩ rfl)

theorem b1_at (c : Dev nD) (j : Fin 128) :
    (V m c main_v42 : FVec Ideal S1x128 .f32) (ix2 (0 : Fin 1) j) = ((m ((c : Thread nD τ).loc main_arg6)) : FVec Ideal S128 .f32) (ix1 j) := by
  have e : @Eq (FVec Ideal S1x128 .f32) (V m c main_v42) (shapeCast S1x128 ((m ((c : Thread nD τ).loc main_arg6)) : FVec Ideal S128 .f32) shapeCasts_S128_S1x128) := by
    unfold V; after_results; rfl
  exact (congrFun e _).trans (shapeCast_a_1a_apply _ shapeCasts_S128_S1x128 (0 : Fin 1) j)

theorem W2_at (c : Dev nD) (k j : Fin 128) :
    (V m c main_v40 : FVec Ideal S128x128 .bf16) (ix2 k j) = ((m ((c : Thread nD τ).loc main_arg7)) : FVec Ideal S128x128 .f32) (ix2 k j) := by
  have e : @Eq (FVec Ideal S128x128 .bf16) (V m c main_v40) (truncf .bf16 ((m ((c : Thread nD τ).loc main_arg7)) : FVec Ideal S128x128 .f32) bitsLt_bf16_f32) := by
    unfold V; after_results
  exact congrFun e _

theorem b2_at (c : Dev nD) (j : Fin 128) :
    (V m c main_v43 : FVec Ideal S1x128 .f32) (ix2 (0 : Fin 1) j) = ((m ((c : Thread nD τ).loc main_arg8)) : FVec Ideal S128 .f32) (ix1 j) := by
  have e : @Eq (FVec Ideal S1x128 .f32) (V m c main_v43) (shapeCast S1x128 ((m ((c : Thread nD τ).loc main_arg8)) : FVec Ideal S128 .f32) shapeCasts_S128_S1x128) := by
    unfold V; after_results; rfl
  exact (congrFun e _).trans (shapeCast_a_1a_apply _ shapeCasts_S128_S1x128 (0 : Fin 1) j)

theorem W3_at (c : Dev nD) (k : Fin 128) (j : Fin 64) :
    (V m c main_v41 : FVec Ideal S128x64 .bf16) (ix2 k j) = ((m ((c : Thread nD τ).loc main_arg9)) : FVec Ideal S128x64 .f32) (ix2 k j) := by
  have e : @Eq (FVec Ideal S128x64 .bf16) (V m c main_v41) (truncf .bf16 ((m ((c : Thread nD τ).loc main_arg9)) : FVec Ideal S128x64 .f32) bitsLt_bf16_f32) := by
    unfold V; after_results
  exact congrFun e _

theorem b3_at (c : Dev nD) (j : Fin 64) :
    (V m c main_v44 : FVec Ideal S1x64 .f32) (ix2 (0 : Fin 1) j) = ((m ((c : Thread nD τ).loc main_arg10)) : FVec Ideal S64 .f32) (ix1 j) := by
  have e : @Eq (FVec Ideal S1x64 .f32) (V m c main_v44) (shapeCast S1x64 ((m ((c : Thread nD τ).loc main_arg10)) : FVec Ideal S64 .f32) shapeCasts_S64_S1x64) := by
    unfold V; after_results; rfl
  exact (congrFun e _).trans (shapeCast_a_1a_apply _ shapeCasts_S64_S1x64 (0 : Fin 1) j)

end Cert.KernelIdeal.Whole

end
-- ==== Proof.Blocks.lean ====
/-
  The blocks a grid point stages, read as rows of the region's arrays.

  The grid has 500 points; point t stages block t of each of the five edge arrays — rows 3200·t … 3200·t + 3199 —
  and the one block of each weight array, which is the whole array.  So an entry (p, k) of a staged edge block is the
  entry (3200·t + p, k) of its array, and an entry of a staged weight block is the same entry of its array.
-/
import proofs.«140982_j24137716203976_1_alg».proof.Proof.HostArrays

set_option maxRecDepth 16384

noncomputable section

open scoped BigOperators

namespace Cert.KernelIdeal.Whole

open Cert.KernelIdeal Cert.KernelIdeal.Gen Cert.KernelIdeal.Value Cert.KernelIdeal.Tile Cert.EdgeMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The blocks a grid point stages -/

theorem hz : (![0, 0] : Fin 2 → Nat) = fun _ => 0 := funext fun a => by fin_cases a <;> rfl

/-- The edge windows and the two result windows move down one block of rows per grid point; -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_16.index t (0 : Fin 2) = t.val ∧ win0_16.index t (1 : Fin 2) = 0
    ∧ win0_17.index t (0 : Fin 2) = t.val ∧ win0_17.index t (1 : Fin 2) = 0 :=
  (by decide +kernel : ∀ t : Fin grid0.N, _)

/-- the weight windows stay on their one block. -/
theorem idx_whole : ∀ t : Fin cfg0.N,
    win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

/-- Row p of grid point t's tile is row 3200·t + p of the edge arrays. -/
def rowAt (t : Fin cfg0.N) (p : Fin 3200) : Fin 1600000 :=
  ⟨t.val * 3200 + p.val, by
    have hN : grid0.N = 500 := N_0
    have ht : t.val < grid0.N := t.isLt
    have hp := p.isLt
    omega⟩

/-- The staged blocks, at their literal shapes. -/
abbrev dfT (c : Dev nD) (t : Fin cfg0.N) : FVec Ideal S3200x16 .f32 := iblk m c 0 t
abbrev dhT (c : Dev nD) (t : Fin cfg0.N) : FVec Ideal S3200x64 .f32 := iblk m c 1 t
abbrev sfT (c : Dev nD) (t : Fin cfg0.N) : FVec Ideal S3200x16 .f32 := iblk m c 2 t
abbrev shT (c : Dev nD) (t : Fin cfg0.N) : FVec Ideal S3200x64 .f32 := iblk m c 3 t
abbrev d2T (c : Dev nD) (t : Fin cfg0.N) : FVec Ideal S3200x1 .f32 := iblk m c 4 t
abbrev wT5 (c : Dev nD) (t : Fin cfg0.N) : FVec Ideal S16x128 .bf16 := iblk m c 5 t
abbrev wT6 (c : Dev nD) (t : Fin cfg0.N) : FVec Ideal S64x128 .bf16 := iblk m c 6 t
abbrev wT7 (c : Dev nD) (t : Fin cfg0.N) : FVec Ideal S16x128 .bf16 := iblk m c 7 t
abbrev wT8 (c : Dev nD) (t : Fin cfg0.N) : FVec Ideal S64x128 .bf16 := iblk m c 8 t
abbrev wT9 (c : Dev nD) (t : Fin cfg0.N) : FVec Ideal S1x128 .f32 := iblk m c 9 t
abbrev wT10 (c : Dev nD) (t : Fin cfg0.N) : FVec Ideal S1x128 .f32 := iblk m c 10 t
abbrev wT11 (c : Dev nD) (t : Fin cfg0.N) : FVec Ideal S1x128 .f32 := iblk m c 11 t
abbrev wT12 (c : Dev nD) (t : Fin cfg0.N) : FVec Ideal S128x128 .bf16 := iblk m c 12 t
abbrev wT13 (c : Dev nD) (t : Fin cfg0.N) : FVec Ideal S1x128 .f32 := iblk m c 13 t
abbrev wT14 (c : Dev nD) (t : Fin cfg0.N) : FVec Ideal S128x64 .bf16 := iblk m c 14 t
abbrev wT15 (c : Dev nD) (t : Fin cfg0.N) : FVec Ideal S1x64 .f32 := iblk m c 15 t

theorem dfT_at (c : Dev nD) (t : Fin cfg0.N) (p : Fin 3200) (k : Fin 16) :
    dfT m c t (ix2 p k) = (V m c main_v6 : FVec Ideal S1600000x16 .f32) (ix2 (rowAt t p) k) := by
  show V m c main_v6 (((cfg0.win 0).blk t).view.emb (ix2 p k)) = _
  refine congrArg (V m c main_v6) (funext fun a => Fin.ext ?_)
  obtain ⟨e0, e1, -⟩ := idx_rows t
  match a with
  | ⟨0, _⟩ => show win0_0.index t (0 : Fin 2) * 3200 + 1 * p.val = t.val * 3200 + p.val; omega
  | ⟨1, _⟩ => show win0_0.index t (1 : Fin 2) * 16 + 1 * k.val = k.val; omega

theorem dhT_at (c : Dev nD) (t : Fin cfg0.N) (p : Fin 3200) (k : Fin 64) :
    dhT m c t (ix2 p k) = (V m c main_v13 : FVec Ideal S1600000x64 .f32) (ix2 (rowAt t p) k) := by
  show V m c main_v13 (((cfg0.win 1).blk t).view.emb (ix2 p k)) = _
  refine congrArg (V m c main_v13) (funext fun a => Fin.ext ?_)
  obtain ⟨-, -, e0, e1, -⟩ := idx_rows t
  match a with
  | ⟨0, _⟩ => show win0_1.index t (0 : Fin 2) * 3200 + 1 * p.val = t.val * 3200 + p.val; omega
  | ⟨1, _⟩ => show win0_1.index t (1 : Fin 2) * 64 + 1 * k.val = k.val; omega

theorem sfT_at (c : Dev nD) (t : Fin cfg0.N) (p : Fin 3200) (k : Fin 16) :
    sfT m c t (ix2 p k) = (V m c main_v20 : FVec Ideal S1600000x16 .f32) (ix2 (rowAt t p) k) := by
  show V m c main_v20 (((cfg0.win 2).blk t).view.emb (ix2 p k)) = _
  refine congrArg (V m c main_v20) (funext fun a => Fin.ext ?_)
  obtain ⟨-, -, -, -, e0, e1, -⟩ := idx_rows t
  match a with
  | ⟨0, _⟩ => show win0_2.index t (0 : Fin 2) * 3200 + 1 * p.val = t.val * 3200 + p.val; omega
  | ⟨1, _⟩ => show win0_2.index t (1 : Fin 2) * 16 + 1 * k.val = k.val; omega

theorem shT_at (c : Dev nD) (t : Fin cfg0.N) (p : Fin 3200) (k : Fin 64) :
    shT m c t (ix2 p k) = (V m c main_v27 : FVec Ideal S1600000x64 .f32) (ix2 (rowAt t p) k) := by
  show V m c main_v27 (((cfg0.win 3).blk t).view.emb (ix2 p k)) = _
  refine congrArg (V m c main_v27) (funext fun a => Fin.ext ?_)
  obtain ⟨-, -, -, -, -, -, e0, e1, -⟩ := idx_rows t
  match a with
  | ⟨0, _⟩ => show win0_3.index t (0 : Fin 2) * 3200 + 1 * p.val = t.val * 3200 + p.val; omega
  | ⟨1, _⟩ => show win0_3.index t (1 : Fin 2) * 64 + 1 * k.val = k.val; omega

theorem d2T_at (c : Dev nD) (t : Fin cfg0.N) (p : Fin 3200) (q : Fin 1) :
    d2T m c t (ix2 p q) = (V m c main_v28 : FVec Ideal S1600000x1 .f32) (ix2 (rowAt t p) q) := by
  show V m c main_v28 (((cfg0.win 4).blk t).view.emb (ix2 p q)) = _
  refine congrArg (V m c main_v28) (funext fun a => Fin.ext ?_)
  obtain ⟨-, -, -, -, -, -, -, -, e0, e1, -⟩ := idx_rows t
  match a with
  | ⟨0, _⟩ => show win0_4.index t (0 : Fin 2) * 3200 + 1 * p.val = t.val * 3200 + p.val; omega
  | ⟨1, _⟩ => show win0_4.index t (1 : Fin 2) * 1 + 1 * q.val = q.val; omega

/-! ## The weight blocks: each weight window's one block is its whole array -/

theorem wT5_at (c : Dev nD) (t : Fin cfg0.N) (k : Fin 16) (j : Fin 128) :
    wT5 m c t (ix2 k j) = (V m c main_v30 : FVec Ideal S16x128 .bf16) (ix2 k j) := by
  show V m c main_v30 (((cfg0.win 5).blk t).view.emb (ix2 k j)) = _
  refine congrArg (V m c main_v30) (funext fun a => Fin.ext ?_)
  obtain ⟨e0, e1, -⟩ := idx_whole t
  match a with
  | ⟨0, _⟩ => show win0_5.index t (0 : Fin 2) * 16 + 1 * k.val = k.val; omega
  | ⟨1, _⟩ => show win0_5.index t (1 : Fin 2) * 128 + 1 * j.val = j.val; omega

theorem wT6_at (c : Dev nD) (t : Fin cfg0.N) (k : Fin 64) (j : Fin 128) :
    wT6 m c t (ix2 k j) = (V m c main_v32 : FVec Ideal S64x128 .bf16) (ix2 k j) := by
  show V m c main_v32 (((cfg0.win 6).blk t).view.emb (ix2 k j)) = _
  refine congrArg (V m c main_v32) (funext fun a => Fin.ext ?_)
  obtain ⟨-, -, e0, e1, -⟩ := idx_whole t
  match a with
  | ⟨0, _⟩ => show win0_6.index t (0 : Fin 2) * 64 + 1 * k.val = k.val; omega
  | ⟨1, _⟩ => show win0_6.index t (1 : Fin 2) * 128 + 1 * j.val = j.val; omega

theorem wT7_at (c : Dev nD) (t : Fin cfg0.N) (k : Fin 16) (j : Fin 128) :
    wT7 m c t (ix2 k j) = (V m c main_v34 : FVec Ideal S16x128 .bf16) (ix2 k j) := by
  show V m c main_v34 (((cfg0.win 7).blk t).view.emb (ix2 k j)) = _
  refine congrArg (V m c main_v34) (funext fun a => Fin.ext ?_)
  obtain ⟨-, -, -, -, e0, e1, -⟩ := idx_whole t
  match a with
  | ⟨0, _⟩ => show win0_7.index t (0 : Fin 2) * 16 + 1 * k.val = k.val; omega
  | ⟨1, _⟩ => show win0_7.index t (1 : Fin 2) * 128 + 1 * j.val = j.val; omega

theorem wT8_at (c : Dev nD) (t : Fin cfg0.N) (k : Fin 64) (j : Fin 128) :
    wT8 m c t (ix2 k j) = (V m c main_v37 : FVec Ideal S64x128 .bf16) (ix2 k j) := by
  show V m c main_v37 (((cfg0.win 8).blk t).view.emb (ix2 k j)) = _
  refine congrArg (V m c main_v37) (funext fun a => Fin.ext ?_)
  obtain ⟨-, -, -, -, -, -, e0, e1, -⟩ := idx_whole t
  match a with
  | ⟨0, _⟩ => show win0_8.index t (0 : Fin 2) * 64 + 1 * k.val = k.val; omega
  | ⟨1, _⟩ => show win0_8.index t (1 : Fin 2) * 128 + 1 * j.val = j.val; omega

theorem wT9_at (c : Dev nD) (t : Fin cfg0.N) (k : Fin 1) (j : Fin 128) :
    wT9 m c t (ix2 k j) = (V m c main_v38 : FVec Ideal S1x128 .f32) (ix2 k j) := by
  show V m c main_v38 (((cfg0.win 9).blk t).view.emb (ix2 k j)) = _
  refine congrArg (V m c main_v38) (funext fun a => Fin.ext ?_)
  obtain ⟨-, -, -, -, -, -, -, -, e0, e1, -⟩ := idx_whole t
  match a with
  | ⟨0, _⟩ => show win0_9.index t (0 : Fin 2) * 1 + 1 * k.val = k.val; omega
  | ⟨1, _⟩ => show win0_9.index t (1 : Fin 2) * 128 + 1 * j.val = j.val; omega

theorem wT10_at (c : Dev nD) (t : Fin cfg0.N) (k : Fin 1) (j : Fin 128) :
    wT10 m c t (ix2 k j) = (V m c main_v39 : FVec Ideal S1x128 .f32) (ix2 k j) := by
  show V m c main_v39 (((cfg0.win 10).blk t).view.emb (ix2 k j)) = _
  refine congrArg (V m c main_v39) (funext fun a => Fin.ext ?_)
  obtain ⟨-, -, -, -, -, -, -, -, -, -, e0, e1, -⟩ := idx_whole t
  match a with
  | ⟨0, _⟩ => show win0_10.index t (0 : Fin 2) * 1 + 1 * k.val = k.val; omega
  | ⟨1, _⟩ => show win0_10.index t (1 : Fin 2) * 128 + 1 * j.val = j.val; omega

theorem wT11_at (c : Dev nD) (t : Fin cfg0.N) (k : Fin 1) (j : Fin 128) :
    wT11 m c t (ix2 k j) = (V m c main_v42 : FVec Ideal S1x128 .f32) (ix2 k j) := by
  show V m c main_v42 (((cfg0.win 11).blk t).view.emb (ix2 k j)) = _
  refine congrArg (V m c main_v42) (funext fun a => Fin.ext ?_)
  obtain ⟨-, -, -, -, -, -, -, -, -, -, -, -, e0, e1, -⟩ := idx_whole t
  match a with
  | ⟨0, _⟩ => show win0_11.index t (0 : Fin 2) * 1 + 1 * k.val = k.val; omega
  | ⟨1, _⟩ => show win0_11.index t (1 : Fin 2) * 128 + 1 * j.val = j.val; omega

theorem wT12_at (c : Dev nD) (t : Fin cfg0.N) (k : Fin 128) (j : Fin 128) :
    wT12 m c t (ix2 k j) = (V m c main_v40 : FVec Ideal S128x128 .bf16) (ix2 k j) := by
  show V m c main_v40 (((cfg0.win 12).blk t).view.emb (ix2 k j)) = _
  refine congrArg (V m c main_v40) (funext fun a => Fin.ext ?_)
  obtain ⟨-, -, -, -, -, -, -, -, -, -, -, -, -, -, e0, e1, -⟩ := idx_whole t
  match a with
  | ⟨0, _⟩ => show win0_12.index t (0 : Fin 2) * 128 + 1 * k.val = k.val; omega
  | ⟨1, _⟩ => show win0_12.index t (1 : Fin 2) * 128 + 1 * j.val = j.val; omega

theorem wT13_at (c : Dev nD) (t : Fin cfg0.N) (k : Fin 1) (j : Fin 128) :
    wT13 m c t (ix2 k j) = (V m c main_v43 : FVec Ideal S1x128 .f32) (ix2 k j) := by
  show V m c main_v43 (((cfg0.win 13).blk t).view.emb (ix2 k j)) = _
  refine congrArg (V m c main_v43) (funext fun a => Fin.ext ?_)
  obtain ⟨-, -, -, -, -, -, -, -, -, -, -, -, -, -, -, -, e0, e1, -⟩ := idx_whole t
  match a with
  | ⟨0, _⟩ => show win0_13.index t (0 : Fin 2) * 1 + 1 * k.val = k.val; omega
  | ⟨1, _⟩ => show win0_13.index t (1 : Fin 2) * 128 + 1 * j.val = j.val; omega

theorem wT14_at (c : Dev nD) (t : Fin cfg0.N) (k : Fin 128) (j : Fin 64) :
    wT14 m c t (ix2 k j) = (V m c main_v41 : FVec Ideal S128x64 .bf16) (ix2 k j) := by
  show V m c main_v41 (((cfg0.win 14).blk t).view.emb (ix2 k j)) = _
  refine congrArg (V m c main_v41) (funext fun a => Fin.ext ?_)
  obtain ⟨-, -, -, -, -, -, -, -, -, -, -, -, -, -, -, -, -, -, e0, e1, -⟩ := idx_whole t
  match a with
  | ⟨0, _⟩ => show win0_14.index t (0 : Fin 2) * 128 + 1 * k.val = k.val; omega
  | ⟨1, _⟩ => show win0_14.index t (1 : Fin 2) * 64 + 1 * j.val = j.val; omega

theorem wT15_at (c : Dev nD) (t : Fin cfg0.N) (k : Fin 1) (j : Fin 64) :
    wT15 m c t (ix2 k j) = (V m c main_v44 : FVec Ideal S1x64 .f32) (ix2 k j) := by
  show V m c main_v44 (((cfg0.win 15).blk t).view.emb (ix2 k j)) = _
  refine congrArg (V m c main_v44) (funext fun a => Fin.ext ?_)
  obtain ⟨-, -, -, -, -, -, -, -, -, -, -, -, -, -, -, -, -, -, -, -, e0, e1⟩ := idx_whole t
  match a with
  | ⟨0, _⟩ => show win0_15.index t (0 : Fin 2) * 1 + 1 * k.val = k.val; omega
  | ⟨1, _⟩ => show win0_15.index t (1 : Fin 2) * 64 + 1 * j.val = j.val; omega

end Cert.KernelIdeal.Whole

end
-- ==== Proof.KernelValue.lean ====
/-
  The kernel's two result arrays as whole-array functions of the arguments.

  Grid point t stages rows 3200·t … 3200·t + 3199 of the five edge arrays and the weight blocks whole, and writes back
  the attention column and the edge features of those rows.  The 500 blocks tile the 1 600 000 rows, so after the run
  each result array is the network's value at every edge; the gathered source rows, which the program also returns,
  are an input of the region and are left as the region found them.
-/
import proofs.«140982_j24137716203976_1_alg».proof.Proof.Blocks

set_option maxRecDepth 16384

noncomputable section

open scoped BigOperators

namespace Cert.KernelIdeal.Whole

open Cert.KernelIdeal Cert.KernelIdeal.Gen Cert.KernelIdeal.Value Cert.KernelIdeal.Tile Cert.EdgeMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a grid point writes back -/

/-- Grid point t writes back, to the attention array, the attention weights of its rows. -/
theorem flushed16_eq (c : Dev nD) (t : Fin cfg0.N) :
    (dats m 0 c).flushed 16 t
      = ((cfg0.win 16).blk t).view.read (Elt Ideal) (attnArr (V m c main_v13) (V m c main_v27)) := by
  rw [Value.flushed16]
  unfold out0_16
  rw [View.canon_unit_zero hz]
  simp only [View.ld_unit_zero (S := S3200x64) hz]
  funext y
  obtain ⟨p, q, rfl⟩ : ∃ (p : Fin 3200) (q : Fin 1), y = ix2 p q := ⟨y 0, y 1, eq_ix2 y⟩
  have hL : (win0 16).cut (grid0.coords t) (k0_pay4 (iblk m c 1 t) (iblk m c 3 t)) (ix2 p q)
      = k0_pay4 (dhT m c t) (shT m c t) (ix2 p q) := rfl
  have hR : View.read (Elt Ideal) ((View.whole main_v45_0).slice ((win0 16).rect t)) (attnArr (V m c main_v13) (V m c main_v27)) (ix2 p q)
      = attnArr (V m c main_v13) (V m c main_v27) (((cfg0.win 16).blk t).view.emb (ix2 p q)) := rfl
  refine hL.trans (Eq.trans ?_ hR.symm)
  refine (pay4_at (dhT m c t) (shT m c t) p q).trans ?_
  refine (attn_rows (rowAt t) (dhT m c t) (shT m c t) (V m c main_v13) (V m c main_v27) (dhT_at m c t) (shT_at m c t) p).trans ?_
  obtain ⟨-, -, -, -, -, -, -, -, -, -, e0, e1, -⟩ := idx_rows t
  unfold attnArr
  refine congrArg (attn (V m c main_v13) (V m c main_v27)) (Fin.ext ?_)
  show t.val * 3200 + p.val = win0_16.index t (0 : Fin 2) * 3200 + 1 * p.val
  omega

/-- Grid point t writes back, to the edge-feature array, the edge features of its rows. -/
theorem flushed17_eq (c : Dev nD) (t : Fin cfg0.N) :
    (dats m 0 c).flushed 17 t
      = ((cfg0.win 17).blk t).view.read (Elt Ideal)
          (edgeArr (V m c main_v6) (V m c main_v13) (V m c main_v20) (V m c main_v27) (V m c main_v28)
            (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [Value.flushed17]
  unfold out0_17
  rw [View.canon_unit_zero hz]
  simp only [View.ld_unit_zero (S := S3200x16) hz, View.ld_unit_zero (S := S3200x64) hz, View.ld_unit_zero (S := S3200x1) hz,
    View.ld_unit_zero (S := S16x128) hz, View.ld_unit_zero (S := S64x128) hz, View.ld_unit_zero (S := S1x128) hz,
    View.ld_unit_zero (S := S128x128) hz, View.ld_unit_zero (S := S128x64) hz, View.ld_unit_zero (S := S1x64) hz]
  funext y
  obtain ⟨p, j, rfl⟩ : ∃ (p : Fin 3200) (j : Fin 64), y = ix2 p j := ⟨y 0, y 1, eq_ix2 y⟩
  show k0_pay6 (k0_pay3 (d2T m c t)) (k0_pay4 (dhT m c t) (shT m c t))
        (k0_pay5 (dfT m c t) (dhT m c t) (sfT m c t) (shT m c t) (wT5 m c t) (wT6 m c t) (wT7 m c t) (wT8 m c t))
        (wT9 m c t) (wT10 m c t) (wT11 m c t) (wT12 m c t) (wT13 m c t) (wT14 m c t) (wT15 m c t) (ix2 p j)
    = edgeArr (V m c main_v6) (V m c main_v13) (V m c main_v20) (V m c main_v27) (V m c main_v28)
        (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 17).blk t).view.emb (ix2 p j))
  refine (tile_edge_at (dfT m c t) (dhT m c t) (sfT m c t) (shT m c t) (d2T m c t)
    (wT5 m c t) (wT6 m c t) (wT7 m c t) (wT8 m c t) (wT9 m c t) (wT10 m c t) (wT11 m c t) (wT12 m c t) (wT13 m c t)
    (wT14 m c t) (wT15 m c t) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (fun k j => (wT5_at m c t k j).trans (W1a_at m c k j))
    (fun k j => (wT6_at m c t k j).trans (W1b_at m c k j))
    (fun k j => (wT7_at m c t k j).trans (W1c_at m c k j))
    (fun k j => (wT8_at m c t k j).trans (W1d_at m c k j))
    (fun j => (wT9_at m c t 0 j).trans (W1e_at m c j))
    (fun j => (wT10_at m c t 0 j).trans (W1f_at m c j))
    (fun j => (wT11_at m c t 0 j).trans (b1_at m c j))
    (fun k j => (wT12_at m c t k j).trans (W2_at m c k j))
    (fun j => (wT13_at m c t 0 j).trans (b2_at m c j))
    (fun k j => (wT14_at m c t k j).trans (W3_at m c k j))
    (fun j => (wT15_at m c t 0 j).trans (b3_at m c j)) p j).trans ?_
  refine (edgeH_rows (rowAt t) (dfT m c t) (dhT m c t) (sfT m c t) (shT m c t) (d2T m c t)
    (V m c main_v6) (V m c main_v13) (V m c main_v20) (V m c main_v27) (V m c main_v28)
    (dfT_at m c t) (dhT_at m c t) (sfT_at m c t) (shT_at m c t) (d2T_at m c t) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) p j).trans ?_
  obtain ⟨-, -, -, -, -, -, -, -, -, -, -, -, e0, e1⟩ := idx_rows t
  unfold edgeArr
  refine congrArg₂ (edgeH (V m c main_v6) (V m c main_v13) (V m c main_v20) (V m c main_v27) (V m c main_v28) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    (Fin.ext ?_) (Fin.ext ?_)
  · show t.val * 3200 + p.val = win0_17.index t (0 : Fin 2) * 3200 + 1 * p.val
    omega
  · show j.val = win0_17.index t (1 : Fin 2) * 64 + 1 * j.val
    omega

/-! ## The blocks tile the arrays -/

theorem mem_blk16 (t : Fin cfg0.N) (i : S1600000x1.Idx) :
    i ∈ ((cfg0.win 16).blk t).view.set ↔ ∀ a : Fin 2, win0_16.index t a * S3200x1.size a ≤ (i a).val ∧ (i a).val < win0_16.index t a * S3200x1.size a + S3200x1.size a := by
  show i ∈ ((View.whole main_v45_0).slice (win0_16.rect t)).set ↔ _
  rw [View.set_slice_whole, Rect.mem_set_unit]
  exact Iff.rfl

theorem mem_blk17 (t : Fin cfg0.N) (i : S1600000x64.Idx) :
    i ∈ ((cfg0.win 17).blk t).view.set ↔ ∀ a : Fin 2, win0_17.index t a * S3200x64.size a ≤ (i a).val ∧ (i a).val < win0_17.index t a * S3200x64.size a + S3200x64.size a := by
  show i ∈ ((View.whole main_v45_1).slice (win0_17.rect t)).set ↔ _
  rw [View.set_slice_whole, Rect.mem_set_unit]
  exact Iff.rfl

/-- Every entry of the attention array lies in the block of the grid point that holds its row. -/
theorem cover16 (i : S1600000x1.Idx) : ∃ t : Fin cfg0.N, (cfg0.win 16).flush t = true ∧ i ∈ ((cfg0.win 16).blk t).view.set := by
  have hi0 : (i 0).val < 1600000 := (i 0).isLt
  have hi1 : (i 1).val < 1 := (i 1).isLt
  have hN : grid0.N = 500 := N_0
  have ht : (i 0).val / 3200 < grid0.N := by omega
  obtain ⟨-, -, -, -, -, -, -, -, -, -, e0, e1, -⟩ := idx_rows ⟨(i 0).val / 3200, ht⟩
  refine ⟨⟨(i 0).val / 3200, ht⟩, flush0_16 _, ?_⟩
  rw [mem_blk16]
  intro a
  match a with
  | ⟨0, _⟩ =>
    show win0_16.index ⟨(i 0).val / 3200, ht⟩ (0 : Fin 2) * 3200 ≤ (i 0).val ∧ (i 0).val < win0_16.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win0_16.index ⟨(i 0).val / 3200, ht⟩ (1 : Fin 2) * 1 ≤ (i 1).val ∧ (i 1).val < win0_16.index ⟨(i 0).val / 3200, ht⟩ (1 : Fin 2) * 1 + 1
    rw [e1]; omega

/-- Every entry of the edge-feature array lies in the block of the grid point that holds its row. -/
theorem cover17 (i : S1600000x64.Idx) : ∃ t : Fin cfg0.N, (cfg0.win 17).flush t = true ∧ i ∈ ((cfg0.win 17).blk t).view.set := by
  have hi0 : (i 0).val < 1600000 := (i 0).isLt
  have hi1 : (i 1).val < 64 := (i 1).isLt
  have hN : grid0.N = 500 := N_0
  have ht : (i 0).val / 3200 < grid0.N := by omega
  obtain ⟨-, -, -, -, -, -, -, -, -, -, -, -, e0, e1⟩ := idx_rows ⟨(i 0).val / 3200, ht⟩
  refine ⟨⟨(i 0).val / 3200, ht⟩, flush0_17 _, ?_⟩
  rw [mem_blk17]
  intro a
  match a with
  | ⟨0, _⟩ =>
    show win0_17.index ⟨(i 0).val / 3200, ht⟩ (0 : Fin 2) * 3200 ≤ (i 0).val ∧ (i 0).val < win0_17.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win0_17.index ⟨(i 0).val / 3200, ht⟩ (1 : Fin 2) * 64 ≤ (i 1).val ∧ (i 1).val < win0_17.index ⟨(i 0).val / 3200, ht⟩ (1 : Fin 2) * 64 + 64
    rw [e1]; omega

/-! ## The arrays after the run -/

/-- After the run the attention array holds the attention weight of every edge's gathered hidden rows. -/
theorem final16 (c : Dev nD) :
    (dats m 0 c).arrAt 16 cfg0.N = attnArr (gatherH (m ((c : Thread nD τ).loc main_arg1)) (m ((c : Thread nD τ).loc main_arg4))) (gatherH (m ((c : Thread nD τ).loc main_arg1)) (m ((c : Thread nD τ).loc main_arg3))) := by
  rw [← V_dstH m c, ← V_srcH m c]
  exact (dats m 0 c).arrAt_eq_of_cover 16 _ (fun t _ => flushed16_eq m c t) cover16

/-- After the run the edge-feature array holds the edge features of every edge's gathered rows. -/
theorem final17 (c : Dev nD) :
    (dats m 0 c).arrAt 17 cfg0.N
      = edgeArr (gatherF (m ((c : Thread nD τ).loc main_arg0)) (m ((c : Thread nD τ).loc main_arg4))) (gatherH (m ((c : Thread nD τ).loc main_arg1)) (m ((c : Thread nD τ).loc main_arg4))) (gatherF (m ((c : Thread nD τ).loc main_arg0)) (m ((c : Thread nD τ).loc main_arg3))) (gatherH (m ((c : Thread nD τ).loc main_arg1)) (m ((c : Thread nD τ).loc main_arg3))) (distCol (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [← V_dstF m c, ← V_dstH m c, ← V_srcF m c, ← V_srcH m c, ← V_dist m c]
  exact (dats m 0 c).arrAt_eq_of_cover 17 _ (fun t _ => flushed17_eq m c t) cover17

/-- The gathered source rows are an input of the region: the run leaves them as it found them. -/
theorem kept_srcH (r : PUnit × MemSt nD τ sig (Elt Ideal)) (h : Pipeline.FramePost cfgs (dats m) 0 (V m) r) (c : Dev nD) :
    r.2.mem ((c : Thread nD τ).loc main_v27) = gatherH (m ((c : Thread nD τ).loc main_arg1)) (m ((c : Thread nD τ).loc main_arg3)) :=
  ((h c).1 3).trans (((dats m 0 c).arrAt_in 3 rfl cfg0.N).trans ((A_eq m c 3).trans (V_srcH m c)))

/-- The kernel's run: its three results are the attention weights, the gathered source rows and the edge features, and
    its arguments are unchanged. -/
theorem run : θ_run defs (onTc (τ := τ) (main (F := Ideal))) ⟨m, fun _ => 0, ρ⟩ fun r => ∀ c : Dev nD,
      r.2.mem ((c : Thread nD τ).loc main_v45_0) = attnArr (gatherH (m ((c : Thread nD τ).loc main_arg1)) (m ((c : Thread nD τ).loc main_arg4))) (gatherH (m ((c : Thread nD τ).loc main_arg1)) (m ((c : Thread nD τ).loc main_arg3)))
      ∧ r.2.mem ((c : Thread nD τ).loc main_v27) = gatherH (m ((c : Thread nD τ).loc main_arg1)) (m ((c : Thread nD τ).loc main_arg3))
      ∧ r.2.mem ((c : Thread nD τ).loc main_v45_1)
          = edgeArr (gatherF (m ((c : Thread nD τ).loc main_arg0)) (m ((c : Thread nD τ).loc main_arg4))) (gatherH (m ((c : Thread nD τ).loc main_arg1)) (m ((c : Thread nD τ).loc main_arg4))) (gatherF (m ((c : Thread nD τ).loc main_arg0)) (m ((c : Thread nD τ).loc main_arg3))) (gatherH (m ((c : Thread nD τ).loc main_arg1)) (m ((c : Thread nD τ).loc main_arg3))) (distCol (m ((c : Thread nD τ).loc main_arg2))) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(post16 m r h c).trans (final16 m c),
      kept_srcH m r h c,
      (post17 m r h c).trans (final17 m c),
      kept_main_arg0 m r h c, kept_main_arg1 m r h c, kept_main_arg2 m r h c, kept_main_arg3 m r h c,
      kept_main_arg4 m r h c, kept_main_arg5 m r h c, kept_main_arg6 m r h c, kept_main_arg7 m r h c,
      kept_main_arg8 m r h c, kept_main_arg9 m r h c, kept_main_arg10 m r h c⟩)
    (run_main m ρ)

end Cert.KernelIdeal.Whole

end
-- ==== Proof.RefValue.lean ====
/-
  The reference program's two computed results, read at one entry, are the edge network's attention weight and edge
  features of the gathered rows.

  The reference gathers the destination and source rows, forms the score  ∑ₖ dh(e,k) · sh(e,k)  (starting its sum from
  the zero word), divides it by √64 and applies  1 / (1 + exp (-x)) ; it joins the six segments into one row of 162
  entries and multiplies by W1 as one product, so its first layer is one sum over 162 rows where the network's
  definition has six partial sums.  Dividing by √64 is multiplying by 1/8, the expanded quotient is the logistic
  function by definition, and the one sum splits into the six by segments; the later layers agree term by term.
-/
import proofs.«140982_j24137716203976_1_alg».proof.Proof.Gen.ReferenceIdeal.Read
import proofs.«140982_j24137716203976_1_alg».proof.Proof.Spec
import Idealize.ShloMosaic.Lib.Pipeline.Value
import Idealize.ShloMosaic.Lib.ValueIdx
import Idealize.ShloMosaic.Lib.ValueLayout

noncomputable section

open scoped BigOperators

namespace Cert.ReferenceIdeal.RefValue

open Cert.ReferenceIdeal Cert.ReferenceIdeal.Read Cert.EdgeMlp Idealize.ShloMosaic Idealize.ShloMosaic.ValueIdx

/-! ## The joined row, segment by segment -/

/-- The joined row at a column of its first segment (columns 0 to 15) is the destination feature row. -/
theorem concat_0 (x0 : (⟨S100000x16, .f32⟩ : BufTy).Contents (Elt Ideal)) (x1 : (⟨S100000x64, .f32⟩ : BufTy).Contents (Elt Ideal))
    (x2 : (⟨S1600000, .f32⟩ : BufTy).Contents (Elt Ideal)) (x3 x4 : (⟨S1600000, .i32⟩ : BufTy).Contents (Elt Ideal))
    (e : Fin 1600000) (k : Fin 16) :
    val_main_v41 (F := Ideal) x0 x1 x2 x3 x4 (ix2 e (⟨k.val, by omega⟩ : Fin 162))
      = val_main_v6 (F := Ideal) x0 x4 (ix2 e k) := by
  unfold val_main_v41
  exact concatenate_apply_piece (1 : Fin S1600000x162.rank) _ _ _ 0 (by simp) S1600000x16 (val_main_v6 (F := Ideal) x0 x4) rfl rfl 0 rfl
    (ix2 e k) (fun b hb => by match b with | ⟨0, _⟩ => rfl | ⟨1, _⟩ => exact absurd rfl hb) (Nat.zero_add _)

/-- The joined row at a column of its second segment (columns 16 to 79) is the destination hidden row. -/
theorem concat_1 (x0 : (⟨S100000x16, .f32⟩ : BufTy).Contents (Elt Ideal)) (x1 : (⟨S100000x64, .f32⟩ : BufTy).Contents (Elt Ideal))
    (x2 : (⟨S1600000, .f32⟩ : BufTy).Contents (Elt Ideal)) (x3 x4 : (⟨S1600000, .i32⟩ : BufTy).Contents (Elt Ideal))
    (e : Fin 1600000) (k : Fin 64) :
    val_main_v41 (F := Ideal) x0 x1 x2 x3 x4 (ix2 e (⟨16 + k.val, by omega⟩ : Fin 162))
      = val_main_v13 (F := Ideal) x1 x4 (ix2 e k) := by
  unfold val_main_v41
  exact concatenate_apply_piece (1 : Fin S1600000x162.rank) _ _ _ 1 (by simp) S1600000x64 (val_main_v13 (F := Ideal) x1 x4) rfl rfl 16 rfl
    (ix2 e k) (fun b hb => by match b with | ⟨0, _⟩ => rfl | ⟨1, _⟩ => exact absurd rfl hb) rfl

/-- The joined row at a column of its third segment (columns 80 to 95) is the source feature row. -/
theorem concat_2 (x0 : (⟨S100000x16, .f32⟩ : BufTy).Contents (Elt Ideal)) (x1 : (⟨S100000x64, .f32⟩ : BufTy).Contents (Elt Ideal))
    (x2 : (⟨S1600000, .f32⟩ : BufTy).Contents (Elt Ideal)) (x3 x4 : (⟨S1600000, .i32⟩ : BufTy).Contents (Elt Ideal))
    (e : Fin 1600000) (k : Fin 16) :
    val_main_v41 (F := Ideal) x0 x1 x2 x3 x4 (ix2 e (⟨80 + k.val, by omega⟩ : Fin 162))
      = val_main_v20 (F := Ideal) x0 x3 (ix2 e k) := by
  unfold val_main_v41
  exact concatenate_apply_piece (1 : Fin S1600000x162.rank) _ _ _ 2 (by simp) S1600000x16 (val_main_v20 (F := Ideal) x0 x3) rfl rfl 80 rfl
    (ix2 e k) (fun b hb => by match b with | ⟨0, _⟩ => rfl | ⟨1, _⟩ => exact absurd rfl hb) rfl

/-- The joined row at a column of its fourth segment (columns 96 to 159) is the source hidden row. -/
theorem concat_3 (x0 : (⟨S100000x16, .f32⟩ : BufTy).Contents (Elt Ideal)) (x1 : (⟨S100000x64, .f32⟩ : BufTy).Contents (Elt Ideal))
    (x2 : (⟨S1600000, .f32⟩ : BufTy).Contents (Elt Ideal)) (x3 x4 : (⟨S1600000, .i32⟩ : BufTy).Contents (Elt Ideal))
    (e : Fin 1600000) (k : Fin 64) :
    val_main_v41 (F := Ideal) x0 x1 x2 x3 x4 (ix2 e (⟨96 + k.val, by omega⟩ : Fin 162))
      = val_main_v27 (F := Ideal) x1 x3 (ix2 e k) := by
  unfold val_main_v41
  exact concatenate_apply_piece (1 : Fin S1600000x162.rank) _ _ _ 3 (by simp) S1600000x64 (val_main_v27 (F := Ideal) x1 x3) rfl rfl 96 rfl
    (ix2 e k) (fun b hb => by match b with | ⟨0, _⟩ => rfl | ⟨1, _⟩ => exact absurd rfl hb) rfl

/-- The joined row at column 160 is the distance. -/
theorem concat_4 (x0 : (⟨S100000x16, .f32⟩ : BufTy).Contents (Elt Ideal)) (x1 : (⟨S100000x64, .f32⟩ : BufTy).Contents (Elt Ideal))
    (x2 : (⟨S1600000, .f32⟩ : BufTy).Contents (Elt Ideal)) (x3 x4 : (⟨S1600000, .i32⟩ : BufTy).Contents (Elt Ideal))
    (e : Fin 1600000) :
    val_main_v41 (F := Ideal) x0 x1 x2 x3 x4 (ix2 e (⟨160, by omega⟩ : Fin 162))
      = val_main_v40 (F := Ideal) x2 (ix2 e (0 : Fin 1)) := by
  unfold val_main_v41
  exact concatenate_apply_piece (1 : Fin S1600000x162.rank) _ _ _ 4 (by simp) S1600000x1 (val_main_v40 (F := Ideal) x2) rfl rfl 160 rfl
    (ix2 e (0 : Fin 1)) (fun b hb => by match b with | ⟨0, _⟩ => rfl | ⟨1, _⟩ => exact absurd rfl hb) rfl

/-- The joined row at column 161 is the attention output. -/
theorem concat_5 (x0 : (⟨S100000x16, .f32⟩ : BufTy).Contents (Elt Ideal)) (x1 : (⟨S100000x64, .f32⟩ : BufTy).Contents (Elt Ideal))
    (x2 : (⟨S1600000, .f32⟩ : BufTy).Contents (Elt Ideal)) (x3 x4 : (⟨S1600000, .i32⟩ : BufTy).Contents (Elt Ideal))
    (e : Fin 1600000) :
    val_main_v41 (F := Ideal) x0 x1 x2 x3 x4 (ix2 e (⟨161, by omega⟩ : Fin 162))
      = val_main_v39 (F := Ideal) x1 x3 x4 (ix2 e (0 : Fin 1)) := by
  unfold val_main_v41
  exact concatenate_apply_piece (1 : Fin S1600000x162.rank) _ _ _ 5 (by simp) S1600000x1 (val_main_v39 (F := Ideal) x1 x3 x4) rfl rfl 161 rfl
    (ix2 e (0 : Fin 1)) (fun b hb => by match b with | ⟨0, _⟩ => rfl | ⟨1, _⟩ => exact absurd rfl hb) rfl

/-! ## The score and the attention weight -/

/-- The reference's attention output at edge e is the network's attention weight of the gathered hidden rows. -/
theorem attn_eq (x1 : (⟨S100000x64, .f32⟩ : BufTy).Contents (Elt Ideal)) (x3 x4 : (⟨S1600000, .i32⟩ : BufTy).Contents (Elt Ideal))
    (e : Fin 1600000) (q : Fin 1) :
    val_main_v39 (F := Ideal) x1 x3 x4 (ix2 e q)
      = attn (val_main_v13 (F := Ideal) x1 x4) (val_main_v27 (F := Ideal) x1 x3) e := by
  rw [val_main_v39_apply, val_main_v38_apply, val_main_cst_9_apply, val_main_v37_apply, val_main_v36_apply,
    val_main_cst_8_apply, val_main_v35_apply, val_main_v34_apply, val_main_v33_apply, val_main_v32_apply,
    val_main_v28_apply, val_main_cst_apply, val_main_v31_apply, val_main_v30_apply, val_main_cst_7_apply]
  simp only [Ideal.hostDivf_def, Ideal.hostUnary_exp_def, Ideal.hostUnary_sqrt_def, Ideal.addf_def, Ideal.ofBits_def]
  have hidx : ∀ k : Fin 64, idx_main_v30 (idx_main_v31 (ix2 e q)) k = ix2 e k := fun k =>
    funext fun a => Fin.ext (by match a with | ⟨0, _⟩ => rfl | ⟨1, _⟩ => rfl)
  have hsum : ∑ k : Fin 64, val_main_v29 (F := Ideal) x1 x3 x4 (idx_main_v30 (idx_main_v31 (ix2 e q)) k)
      = score (val_main_v13 (F := Ideal) x1 x4) (val_main_v27 (F := Ideal) x1 x3) e := by
    unfold score
    refine Finset.sum_congr rfl fun k _ => ?_
    rw [hidx k, val_main_v29_apply]; rfl
  rw [hsum, Ideal.ofBits_zero_f32, zero_add, div_sqrt_64, ofBits_one]
  rfl

/-! ## The three layers -/

/-- The reference's first layer at (e, j) is the network's first hidden layer of the gathered rows: the one sum over
    the 162 joined columns splits by segments, each segment of the joined row is the array it came from, and the last
    column is the attention weight. -/
theorem hid1_eq (x0 : (⟨S100000x16, .f32⟩ : BufTy).Contents (Elt Ideal)) (x1 : (⟨S100000x64, .f32⟩ : BufTy).Contents (Elt Ideal))
    (x2 : (⟨S1600000, .f32⟩ : BufTy).Contents (Elt Ideal)) (x3 x4 : (⟨S1600000, .i32⟩ : BufTy).Contents (Elt Ideal))
    (x5 : (⟨S162x128, .f32⟩ : BufTy).Contents (Elt Ideal)) (x6 : (⟨S128, .f32⟩ : BufTy).Contents (Elt Ideal))
    (e : Fin 1600000) (j : Fin 128) :
    val_main_v46 (F := Ideal) x0 x1 x2 x3 x4 x5 x6 (ix2 e j)
      = hid1 (val_main_v6 (F := Ideal) x0 x4) (val_main_v13 (F := Ideal) x1 x4) (val_main_v20 (F := Ideal) x0 x3)
          (val_main_v27 (F := Ideal) x1 x3) (val_main_v40 (F := Ideal) x2) x5 x6 e j := by
  rw [val_main_v46_apply, val_main_call0_v0_apply, val_main_call0_cst_apply, val_main_v45_apply, val_main_v44_apply,
    val_main_v43_apply, val_main_v42_apply]
  simp only [Ideal.maximumf_def, Ideal.addf_def, Ideal.ofBits_def]
  have hl : ∀ k : Fin 162, lidx_main_v42 (ix2 e j) k = ix2 e k := fun k => funext fun a => Fin.ext (by match a with | ⟨0, _⟩ => rfl | ⟨1, _⟩ => rfl)
  have hr : ∀ k : Fin 162, ridx_main_v42 (ix2 e j) k = ix2 k j := fun k => funext fun a => Fin.ext (by match a with | ⟨0, _⟩ => rfl | ⟨1, _⟩ => rfl)
  have hb : idx_main_v43 (idx_main_v44 (ix2 e j)) = ix1 j := funext fun a => Fin.ext (by match a with | ⟨0, _⟩ => rfl)
  have h1 : ∑ k : Fin 162, val_main_v41 (F := Ideal) x0 x1 x2 x3 x4 (lidx_main_v42 (ix2 e j) k) * x5 (ridx_main_v42 (ix2 e j) k)
      = ∑ k : Fin 162, val_main_v41 (F := Ideal) x0 x1 x2 x3 x4 (ix2 e k) * x5 (ix2 k j) :=
    Finset.sum_congr rfl fun k _ => by rw [hl k, hr k]
  have hs : ∑ k : Fin 162, val_main_v41 (F := Ideal) x0 x1 x2 x3 x4 (ix2 e k) * x5 (ix2 k j)
      = lin1 (val_main_v6 (F := Ideal) x0 x4) (val_main_v13 (F := Ideal) x1 x4) (val_main_v20 (F := Ideal) x0 x3)
          (val_main_v27 (F := Ideal) x1 x3) (val_main_v40 (F := Ideal) x2) x5 e j := by
    rw [sum_rows_split]
    unfold lin1
    simp only [concat_0, concat_1, concat_2, concat_3, concat_4, concat_5, attn_eq]
  rw [h1, hs, hb]
  rfl

/-- The reference's second layer at (e, j) is the network's second hidden layer over its first. -/
theorem hid2_eq (x0 : (⟨S100000x16, .f32⟩ : BufTy).Contents (Elt Ideal)) (x1 : (⟨S100000x64, .f32⟩ : BufTy).Contents (Elt Ideal))
    (x2 : (⟨S1600000, .f32⟩ : BufTy).Contents (Elt Ideal)) (x3 x4 : (⟨S1600000, .i32⟩ : BufTy).Contents (Elt Ideal))
    (x5 : (⟨S162x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (e : Fin 1600000) (j : Fin 128) :
    val_main_v51 (F := Ideal) x0 x1 x2 x3 x4 x5 x6 x7 x8 (ix2 e j)
      = hid2 (hid1 (val_main_v6 (F := Ideal) x0 x4) (val_main_v13 (F := Ideal) x1 x4) (val_main_v20 (F := Ideal) x0 x3)
          (val_main_v27 (F := Ideal) x1 x3) (val_main_v40 (F := Ideal) x2) x5 x6) x7 x8 e j := by
  rw [val_main_v51_apply, val_main_call1_v0_apply, val_main_call1_cst_apply, val_main_v50_apply, val_main_v49_apply,
    val_main_v48_apply, val_main_v47_apply]
  simp only [Ideal.maximumf_def, Ideal.addf_def, Ideal.ofBits_def]
  have hl : ∀ k : Fin 128, lidx_main_v47 (ix2 e j) k = ix2 e k := fun k => funext fun a => Fin.ext (by match a with | ⟨0, _⟩ => rfl | ⟨1, _⟩ => rfl)
  have hr : ∀ k : Fin 128, ridx_main_v47 (ix2 e j) k = ix2 k j := fun k => funext fun a => Fin.ext (by match a with | ⟨0, _⟩ => rfl | ⟨1, _⟩ => rfl)
  have hb : idx_main_v48 (idx_main_v49 (ix2 e j)) = ix1 j := funext fun a => Fin.ext (by match a with | ⟨0, _⟩ => rfl)
  have h1 : ∑ k : Fin 128, val_main_v46 (F := Ideal) x0 x1 x2 x3 x4 x5 x6 (lidx_main_v47 (ix2 e j) k) * x7 (ridx_main_v47 (ix2 e j) k)
      = ∑ k : Fin 128, hid1 (val_main_v6 (F := Ideal) x0 x4) (val_main_v13 (F := Ideal) x1 x4) (val_main_v20 (F := Ideal) x0 x3)
          (val_main_v27 (F := Ideal) x1 x3) (val_main_v40 (F := Ideal) x2) x5 x6 e k * x7 (ix2 k j) :=
    Finset.sum_congr rfl fun k _ => by rw [hl k, hr k, hid1_eq]
  rw [h1, hb]
  rfl

/-- The reference's edge features at (e, j) are the network's, of the gathered rows and the distance column. -/
theorem edge_eq (x0 : (⟨S100000x16, .f32⟩ : BufTy).Contents (Elt Ideal)) (x1 : (⟨S100000x64, .f32⟩ : BufTy).Contents (Elt Ideal))
    (x2 : (⟨S1600000, .f32⟩ : BufTy).Contents (Elt Ideal)) (x3 x4 : (⟨S1600000, .i32⟩ : BufTy).Contents (Elt Ideal))
    (x5 : (⟨S162x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x64, .f32⟩ : BufTy).Contents (Elt Ideal)) (x10 : (⟨S64, .f32⟩ : BufTy).Contents (Elt Ideal))
    (e : Fin 1600000) (j : Fin 64) :
    val_main_v55 (F := Ideal) x0 x1 x2 x3 x4 x5 x6 x7 x8 x9 x10 (ix2 e j)
      = edgeH (val_main_v6 (F := Ideal) x0 x4) (val_main_v13 (F := Ideal) x1 x4) (val_main_v20 (F := Ideal) x0 x3)
          (val_main_v27 (F := Ideal) x1 x3) (val_main_v40 (F := Ideal) x2) x5 x6 x7 x8 x9 x10 e j := by
  rw [val_main_v55_apply, val_main_v54_apply, val_main_v53_apply, val_main_v52_apply]
  simp only [Ideal.addf_def]
  have hl : ∀ k : Fin 128, lidx_main_v52 (ix2 e j) k = ix2 e k := fun k => funext fun a => Fin.ext (by match a with | ⟨0, _⟩ => rfl | ⟨1, _⟩ => rfl)
  have hr : ∀ k : Fin 128, ridx_main_v52 (ix2 e j) k = ix2 k j := fun k => funext fun a => Fin.ext (by match a with | ⟨0, _⟩ => rfl | ⟨1, _⟩ => rfl)
  have hb : idx_main_v53 (idx_main_v54 (ix2 e j)) = ix1 j := funext fun a => Fin.ext (by match a with | ⟨0, _⟩ => rfl)
  have h1 : ∑ k : Fin 128, val_main_v51 (F := Ideal) x0 x1 x2 x3 x4 x5 x6 x7 x8 (lidx_main_v52 (ix2 e j) k) * x9 (ridx_main_v52 (ix2 e j) k)
      = ∑ k : Fin 128, hid2 (hid1 (val_main_v6 (F := Ideal) x0 x4) (val_main_v13 (F := Ideal) x1 x4) (val_main_v20 (F := Ideal) x0 x3)
          (val_main_v27 (F := Ideal) x1 x3) (val_main_v40 (F := Ideal) x2) x5 x6) x7 x8 e k * x9 (ix2 k j) :=
    Finset.sum_congr rfl fun k _ => by rw [hl k, hr k, hid2_eq]
  rw [h1, hb]
  rfl

end Cert.ReferenceIdeal.RefValue

end
-- ==== Proof.Bridge.lean ====
/-
  The two programs compute their gathered rows and the distance column by the same operations of the same arguments,
  and the reference's results, as whole arrays, are the network's two result arrays of those rows.
-/
import proofs.«140982_j24137716203976_1_alg».proof.Proof.KernelValue
import proofs.«140982_j24137716203976_1_alg».proof.Proof.RefValue

noncomputable section

namespace Cert.Bridge

open Cert.EdgeMlp Cert.ReferenceIdeal.Read Cert.KernelIdeal.Whole Idealize.ShloMosaic Idealize.ShloMosaic.ValueIdx

/-- The gathered destination features are one term in both programs. -/
theorem dstF_eq (x0 : (⟨Cert.ReferenceIdeal.S100000x16, .f32⟩ : BufTy).Contents (Elt Ideal))
    (x4 : (⟨Cert.ReferenceIdeal.S1600000, .i32⟩ : BufTy).Contents (Elt Ideal)) :
    gatherF x0 x4 = val_main_v6 (F := Ideal) x0 x4 := rfl

/-- The gathered destination hidden rows. -/
theorem dstH_eq (x1 : (⟨Cert.ReferenceIdeal.S100000x64, .f32⟩ : BufTy).Contents (Elt Ideal))
    (x4 : (⟨Cert.ReferenceIdeal.S1600000, .i32⟩ : BufTy).Contents (Elt Ideal)) :
    gatherH x1 x4 = val_main_v13 (F := Ideal) x1 x4 := rfl

/-- The gathered source features. -/
theorem srcF_eq (x0 : (⟨Cert.ReferenceIdeal.S100000x16, .f32⟩ : BufTy).Contents (Elt Ideal))
    (x3 : (⟨Cert.ReferenceIdeal.S1600000, .i32⟩ : BufTy).Contents (Elt Ideal)) :
    gatherF x0 x3 = val_main_v20 (F := Ideal) x0 x3 := rfl

/-- The gathered source hidden rows. -/
theorem srcH_eq (x1 : (⟨Cert.ReferenceIdeal.S100000x64, .f32⟩ : BufTy).Contents (Elt Ideal))
    (x3 : (⟨Cert.ReferenceIdeal.S1600000, .i32⟩ : BufTy).Contents (Elt Ideal)) :
    gatherH x1 x3 = val_main_v27 (F := Ideal) x1 x3 := rfl

/-- The distance column. -/
theorem dist_eq (x2 : (⟨Cert.ReferenceIdeal.S1600000, .f32⟩ : BufTy).Contents (Elt Ideal)) :
    distCol x2 = val_main_v40 (F := Ideal) x2 := rfl

/-- The reference's attention output is the attention array of the gathered hidden rows. -/
theorem ref_attn (x1 : (⟨Cert.ReferenceIdeal.S100000x64, .f32⟩ : BufTy).Contents (Elt Ideal))
    (x3 x4 : (⟨Cert.ReferenceIdeal.S1600000, .i32⟩ : BufTy).Contents (Elt Ideal)) :
    val_main_v39 (F := Ideal) x1 x3 x4 = attnArr (gatherH x1 x4) (gatherH x1 x3) := by
  funext i
  obtain ⟨e, q, rfl⟩ : ∃ (e : Fin 1600000) (q : Fin 1), i = ix2 e q := ⟨i 0, i 1, eq_ix2 i⟩
  exact Cert.ReferenceIdeal.RefValue.attn_eq x1 x3 x4 e q

/-- The reference's edge features are the edge-feature array of the gathered rows. -/
theorem ref_edge (x0 : (⟨Cert.ReferenceIdeal.S100000x16, .f32⟩ : BufTy).Contents (Elt Ideal))
    (x1 : (⟨Cert.ReferenceIdeal.S100000x64, .f32⟩ : BufTy).Contents (Elt Ideal))
    (x2 : (⟨Cert.ReferenceIdeal.S1600000, .f32⟩ : BufTy).Contents (Elt Ideal))
    (x3 x4 : (⟨Cert.ReferenceIdeal.S1600000, .i32⟩ : BufTy).Contents (Elt Ideal))
    (x5 : (⟨Cert.ReferenceIdeal.S162x128, .f32⟩ : BufTy).Contents (Elt Ideal)) (x6 : (⟨Cert.ReferenceIdeal.S128, .f32⟩ : BufTy).Contents (Elt Ideal))
    (x7 : (⟨Cert.ReferenceIdeal.S128x128, .f32⟩ : BufTy).Contents (Elt Ideal)) (x8 : (⟨Cert.ReferenceIdeal.S128, .f32⟩ : BufTy).Contents (Elt Ideal))
    (x9 : (⟨Cert.ReferenceIdeal.S128x64, .f32⟩ : BufTy).Contents (Elt Ideal)) (x10 : (⟨Cert.ReferenceIdeal.S64, .f32⟩ : BufTy).Contents (Elt Ideal)) :
    val_main_v55 (F := Ideal) x0 x1 x2 x3 x4 x5 x6 x7 x8 x9 x10
      = edgeArr (gatherF x0 x4) (gatherH x1 x4) (gatherF x0 x3) (gatherH x1 x3) (distCol x2) x5 x6 x7 x8 x9 x10 := by
  funext i
  obtain ⟨e, j, rfl⟩ : ∃ (e : Fin 1600000) (j : Fin 64), i = ix2 e j := ⟨i 0, i 1, eq_ix2 i⟩
  exact Cert.ReferenceIdeal.RefValue.edge_eq x0 x1 x2 x3 x4 x5 x6 x7 x8 x9 x10 e j

end Cert.Bridge

end
-- ==== Proof.lean ====
/-
  The edge network of a graph layer: a Pallas kernel against its jnp reference, over the extended reals.

  Both programs gather each edge's destination and source rows of the node features and hidden states, form the
  attention weight  σ(⟨dst_h, src_h⟩ / √64) , and pass the row  [dst_f | dst_h | src_f | src_h | distance | attn]
  through three dense layers (162 → 128 → 128 → 64) with a clamp at zero after the first two; they return the
  attention weights, the gathered source rows and the edge features.  The kernel works on tiles of 3200 edges,
  multiplies by 1/8 where the reference divides by √64, applies the logistic function where the reference spells
  1 / (1 + exp (-x)), and replaces the product of the 162-entry row with W1 by the sum of six partial products over
  the row's segments.  On the extended reals these are the same function of the arguments: 1/8 is 1/√64, the
  logistic function is that quotient by definition, and a sum over 162 rows is the sum of its six segments because
  addition is associative and commutative there — no entry needs to be finite for any of it.

  Proof/Spec.lean states the network once; Proof/TileBody.lean reads the kernel's body at an entry of a tile;
  Proof/KernelValue.lean assembles the tiles into the kernel's result arrays; Proof/RefValue.lean reads the reference's
  results at an entry; Proof/Bridge.lean identifies the two programs' gathered arrays.  The three frames are the
  generated frame runs (the reference's is its generated run with the results dropped), and the idealization rewrote
  no operation, so there is nothing to preserve.
-/
import proofs.«140982_j24137716203976_1_alg».proof.Defs
import proofs.«140982_j24137716203976_1_alg».proof.Proof.Gen.Kernel
import proofs.«140982_j24137716203976_1_alg».proof.Proof.Gen.Kernel.Skeleton
import proofs.«140982_j24137716203976_1_alg».proof.Proof.Gen.Kernel.Launch
import proofs.«140982_j24137716203976_1_alg».proof.Proof.Gen.Kernel.Points
import proofs.«140982_j24137716203976_1_alg».proof.Proof.Gen.Kernel.Frame
import proofs.«140982_j24137716203976_1_alg».proof.Proof.Gen.KernelIdeal
import proofs.«140982_j24137716203976_1_alg».proof.Proof.Gen.KernelIdeal.Skeleton
import proofs.«140982_j24137716203976_1_alg».proof.Proof.Gen.KernelIdeal.Launch
import proofs.«140982_j24137716203976_1_alg».proof.Proof.Gen.KernelIdeal.Points
import proofs.«140982_j24137716203976_1_alg».proof.Proof.Gen.KernelIdeal.Frame
import proofs.«140982_j24137716203976_1_alg».proof.Proof.Gen.ReferenceIdeal
import proofs.«140982_j24137716203976_1_alg».proof.Proof.Gen.Pre_finite_inputs
import proofs.«140982_j24137716203976_1_alg».proof.Proof.Gen.KernelIdeal.Value
import proofs.«140982_j24137716203976_1_alg».proof.Proof.Gen.ReferenceIdeal.Run
import proofs.«140982_j24137716203976_1_alg».proof.Proof.Gen.ReferenceIdeal.Read
import proofs.«140982_j24137716203976_1_alg».proof.Proof.KernelValue
import proofs.«140982_j24137716203976_1_alg».proof.Proof.RefValue
import proofs.«140982_j24137716203976_1_alg».proof.Proof.Bridge
import Idealize.ShloMosaic.Adequacy
import Idealize.ShloMosaic.Init

noncomputable section

namespace Cert.Proof

open Idealize.ShloMosaic Idealize.SL.Sem Cert.EdgeMlp Cert.KernelIdeal.Whole

theorem frame_kernel : Cert.frame_Kernel := fun m ρ _ => Cert.Kernel.Gen.frame m ρ

theorem frame_kernelIdeal : Cert.frame_KernelIdeal := fun m ρ _ => Cert.KernelIdeal.Gen.frame m ρ

/-- The reference's run, its three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From arguments that agree, both programs end with the attention array, the gathered source rows and the
    edge-feature array of the same gathered rows. -/
theorem algebraic : Cert.algebraic_KernelIdeal_ReferenceIdeal := by
  intro m ρ m' ρ' _ hagree
  refine ⟨fun c => attnArr (gatherH (m ((c.tc : Thread Cert.KernelIdeal.nD Cert.KernelIdeal.τ).loc Cert.KernelIdeal.main_arg1)) (m ((c.tc : Thread Cert.KernelIdeal.nD Cert.KernelIdeal.τ).loc Cert.KernelIdeal.main_arg4))) (gatherH (m ((c.tc : Thread Cert.KernelIdeal.nD Cert.KernelIdeal.τ).loc Cert.KernelIdeal.main_arg1)) (m ((c.tc : Thread Cert.KernelIdeal.nD Cert.KernelIdeal.τ).loc Cert.KernelIdeal.main_arg3))), fun c => gatherH (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    fun c => edgeArr (gatherF (m ((c.tc : Thread Cert.KernelIdeal.nD Cert.KernelIdeal.τ).loc Cert.KernelIdeal.main_arg0)) (m ((c.tc : Thread Cert.KernelIdeal.nD Cert.KernelIdeal.τ).loc Cert.KernelIdeal.main_arg4))) (gatherH (m ((c.tc : Thread Cert.KernelIdeal.nD Cert.KernelIdeal.τ).loc Cert.KernelIdeal.main_arg1)) (m ((c.tc : Thread Cert.KernelIdeal.nD Cert.KernelIdeal.τ).loc Cert.KernelIdeal.main_arg4))) (gatherF (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (gatherH (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (distCol (m ((c.tc : Thread Cert.KernelIdeal.nD Cert.KernelIdeal.τ).loc Cert.KernelIdeal.main_arg2))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Whole.run m ρ, ?_⟩
  refine (θ_run Cert.ReferenceIdeal.defs _ _).mono (fun r h c => ?_) (Cert.ReferenceIdeal.Value.run (F := Ideal) m' ρ')
  obtain ⟨h0, h1, h2, hargs⟩ := h c
  obtain ⟨a0, a1, a2, a3, a4, a5, a6, a7, a8, a9, a10⟩ := hagree c
  refine ⟨h0.trans ?_, h1.trans ?_, h2.trans ?_, hargs⟩
  · rw [a1, a3, a4, Cert.ReferenceIdeal.Read.val_main_v39_eq]
    exact Cert.Bridge.ref_attn _ _ _
  · rw [a1, a3, Cert.ReferenceIdeal.Read.val_main_v27_eq]
    exact (Cert.Bridge.srcH_eq _ _).symm
  · rw [Cert.ReferenceIdeal.Read.val_main_v55_eq, a0, a1, a2, a3, a4, a5, a6, a7, a8, a9, a10]
    exact Cert.Bridge.ref_edge _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
